-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x10000 : Shape := ⟨2, ![8192, 10000]⟩
abbrev S8192 : Shape := ⟨1, ![8192]⟩
abbrev S_ : Shape := ⟨0, ![]⟩

class Facts : Prop where
  bcast_S_S8192x10000 : S_.BroadcastsInDim S8192x10000 (![] : Fin 0 → Fin S8192x10000.rank)
  reducesTo_S8192x10000_S_d0_1 : S8192x10000.ReducesTo [0, 1] S_
  h_S_ : 0 < S_.numel
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S8192x10000 .f32) (main_arg1 : IVec S8192 32) : IVec S_ 1 :=
  let main_v0 : FVec F S8192x10000 .f32 := Host.absf main_arg0
  let main_cst : FVec F S_ .f32 := constant S_ .f32 0x7F800000#32
  let main_v1 : FVec F S8192x10000 .f32 := broadcastInDim S8192x10000 ![] bcast_S_S8192x10000 main_cst
  let main_v2 : IVec S8192x10000 1 := cmpf .olt main_v0 main_v1
  let main_c : IVec S_ 1 := constantI S_ 1 1#1
  let main_v3 : IVec S_ 1 := (fun x v => Host.reduce IntOp.andi x v reducesTo_S8192x10000_S_d0_1 h_S_) main_v2 main_c
  let main_c_0 : IVec S_ 32 := constantI S_ 32 0#32
  let main_v4 : IVec S8192 32 := broadcastInDim S8192 ![] bcast_S_S8192 main_c_0
  let main_v5 : IVec S8192 1 := cmpi .sge main_arg1 main_v4
  let main_c_1 : IVec S_ 32 := constantI S_ 32 10000#32
  let main_v6 : IVec S8192 32 := broadcastInDim S8192 ![] bcast_S_S8192 main_c_1
  let main_v7 : IVec S8192 1 := cmpi .slt main_arg1 main_v6
  let main_v8 : IVec S8192 1 := andi main_v5 main_v7
  let main_c_2 : IVec S_ 1 := constantI S_ 1 1#1
  let main_v9 : IVec S_ 1 := (fun x v => Host.reduce IntOp.andi x v reducesTo_S8192_S_d0 h_S_) main_v8 main_c_2
  let main_v10 : IVec S_ 1 := andi main_v3 main_v9
  main_v10
-- ==== Kernel.lean ====
abbrev S8192x10000 : Shape := ⟨2, ![8192, 10000]⟩
abbrev S8192 : Shape := ⟨1, ![8192]⟩
abbrev S_ : Shape := ⟨0, ![]⟩
abbrev S8192x1 : Shape := ⟨2, ![8192, 1]⟩
abbrev S8192x2 : Shape := ⟨2, ![8192, 2]⟩
abbrev S128x10000 : Shape := ⟨2, ![128, 10000]⟩
abbrev S128x1 : Shape := ⟨2, ![128, 1]⟩
abbrev S128 : Shape := ⟨1, ![128]⟩

abbrev nBuf : Space → Nat
  | .hbm => 27
  | .vmem => 6
  | .smem => 0
  | _ => 0

abbrev bufTy : (tb : Table) → Fin (tcTables nBuf tb) → BufTy
  | .hbm, ⟨0, _⟩ => ⟨S8192x10000, .f32⟩
  | .hbm, ⟨1, _⟩ => ⟨S8192, .i32⟩
  | .hbm, ⟨2, _⟩ => ⟨S8192, .i32⟩
  | .hbm, ⟨3, _⟩ => ⟨S_, .i32⟩
  | .hbm, ⟨4, _⟩ => ⟨S8192, .i32⟩
  | .hbm, ⟨5, _⟩ => ⟨S8192, .i1⟩
  | .hbm, ⟨6, _⟩ => ⟨S_, .i32⟩
  | .hbm, ⟨7, _⟩ => ⟨S8192, .i32⟩
  | .hbm, ⟨8, _⟩ => ⟨S8192, .i32⟩
  | .hbm, ⟨9, _⟩ => ⟨S8192, .i32⟩
  | .hbm, ⟨10, _⟩ => ⟨S_, .i32⟩
  | .hbm, ⟨11, _⟩ => ⟨S8192, .i32⟩
  | .hbm, ⟨12, _⟩ => ⟨S8192, .i1⟩
  | .hbm, ⟨13, _⟩ => ⟨S_, .i32⟩
  | .hbm, ⟨14, _⟩ => ⟨S8192, .i32⟩
  | .hbm, ⟨15, _⟩ => ⟨S8192, .i32⟩
  | .hbm, ⟨16, _⟩ => ⟨S8192, .i32⟩
  | .hbm, ⟨17, _⟩ => ⟨S8192x1, .i32⟩
  | .hbm, ⟨18, _⟩ => ⟨S8192x1, .i32⟩
  | .hbm, ⟨19, _⟩ => ⟨S8192x2, .i32⟩
  | .hbm, ⟨20, _⟩ => ⟨S8192, .f32⟩
  | .hbm, ⟨21, _⟩ => ⟨S8192x1, .f32⟩
  | .hbm, ⟨22, _⟩ => ⟨S8192, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .local _ .vmem, ⟨0, _⟩ => ⟨S128x10000, .f32⟩
  | .local _ .vmem, ⟨1, _⟩ => ⟨S128x10000, .f32⟩
  | .local _ .vmem, ⟨2, _⟩ => ⟨S128x1, .f32⟩
  | .local _ .vmem, ⟨3, _⟩ => ⟨S128x1, .f32⟩
  | .local _ .vmem, ⟨4, _⟩ => ⟨S128, .f32⟩
  | .local _ .vmem, ⟨5, _⟩ => ⟨S128, .f32⟩
  | _, _ => ⟨S8192x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c_1 : Ref sig .tc := ⟨.hbm, 10, rfl⟩
abbrev main_v6 : Ref sig .tc := ⟨.hbm, 11, rfl⟩
abbrev main_v7 : Ref sig .tc := ⟨.hbm, 12, rfl⟩
abbrev main_c_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S128x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  concatenates_S8192x1_S8192x1_S8192x2_d1 : Shape.Concatenates [S8192x1, S8192x1] S8192x2 1
  shapeCasts_S8192_S8192x1 : S8192.ShapeCasts S8192x1
  inb_S128x10000_S128x10000_0_0 : ∀ a, (![0, 0] : Fin 2 → Nat) a + S128x10000.size a ≤ S128x10000.size a
  h_S128x10000 : 0 < S128x10000.numel
  inb_S128x1_S128x1_0_0 : ∀ a, (![0, 0] : Fin 2 → Nat) a + S128x1.size a ≤ S128x1.size a
  h_S128x1 : 0 < S128x1.numel
  shapeCasts_S128x1_S128x1 : S128x1.ShapeCasts S128x1
  reduces_S128x10000_S128 : S128x10000.Reduces [1] S128
  shapeCasts_S128_S128x1 : S128.ShapeCasts S128x1
  broadcasts_S128x1_S128x10000 : S128x1.Broadcasts S128x10000
  shapeCasts_S128x1_S128 : S128x1.ShapeCasts S128
  inb_S128_S128_0 : ∀ a, (![0] : Fin 1 → Nat) a + S128.size a ≤ S128.size a
  h_S128 : 0 < S128.numel
  reducesTo_S8192_S_d0 : S8192.ReducesTo [0] S_
  h_S_ : 0 < S_.numel
  gather_S8192x10000_S8192x2_S8192_n_01_n_n_01_1_11_wf : GatherDims.WF S8192x10000 S8192x2 S8192 [] [0, 1] [] [0, 1] [] 1 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x10000.size a ≤ S8192x10000.size a
  hwx0_0 : ∀ i : grid0.Coords, EltTy.bits .f32 = 32 ∨ (Rect.block (s := S8192x10000) S128x10000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1.size a ≤ S8192x1.size a
  hwx0_1 : ∀ i : grid0.Coords, EltTy.bits .f32 = 32 ∨ (Rect.block (s := S8192x1) S128x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S8192.size a
  hwx0_2 : ∀ i : grid0.Coords, EltTy.bits .f32 = 32 ∨ (Rect.block (s := S8192) S128.size (cc0_transform_2 i) (hinb0_2 i)).WholeWords (EltTy.packing .f32)

variable [Facts₀]

def gather_S8192x10000_S8192x2_S8192_n_01_n_n_01_1_11 : GatherDims S8192x10000 S8192x2 S8192 where
  offsetDims := []
  collapsedSliceDims := [0, 1]
  operandBatchingDims := []
  startIndicesBatchingDims := []
  startIndexMap := [0, 1]
  indexVectorDim := 1
  sliceSizes := ![1, 1]
  wf := gather_S8192x10000_S8192x2_S8192_n_01_n_n_01_1_11_wf

abbrev win0_0 : Pipeline.Window sig grid0 :=
  Pipeline.Window.ofSpec (Memref.whole main_arg0) S128x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S128x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x10000 : Shape := ⟨2, ![8192, 10000]⟩
abbrev S8192 : Shape := ⟨1, ![8192]⟩
abbrev S_ : Shape := ⟨0, ![]⟩
abbrev S8192x1 : Shape := ⟨2, ![8192, 1]⟩
abbrev S8192x2 : Shape := ⟨2, ![8192, 2]⟩

abbrev nBuf : Space → Nat
  | .hbm => 91
  | .vmem => 0
  | .smem => 0
  | _ => 0

abbrev bufTy : (tb : Table) → Fin (tcTables nBuf tb) → BufTy
  | .hbm, ⟨0, _⟩ => ⟨S8192x10000, .f32⟩
  | .hbm, ⟨1, _⟩ => ⟨S8192, .i32⟩
  | .hbm, ⟨2, _⟩ => ⟨S8192, .i32⟩
  | .hbm, ⟨3, _⟩ => ⟨S_, .i32⟩
  | .hbm, ⟨4, _⟩ => ⟨S8192, .i32⟩
  | .hbm, ⟨5, _⟩ => ⟨S8192, .i1⟩
  | .hbm, ⟨6, _⟩ => ⟨S_, .i32⟩
  | .hbm, ⟨7, _⟩ => ⟨S8192, .i32⟩
  | .hbm, ⟨8, _⟩ => ⟨S8192, .i32⟩
  | .hbm, ⟨9, _⟩ => ⟨S8192, .i32⟩
  | .hbm, ⟨10, _⟩ => ⟨S_, .i32⟩
  | .hbm, ⟨11, _⟩ => ⟨S8192, .i32⟩
  | .hbm, ⟨12, _⟩ => ⟨S8192, .i1⟩
  | .hbm, ⟨13, _⟩ => ⟨S_, .i32⟩
  | .hbm, ⟨14, _⟩ => ⟨S8192, .i32⟩
  | .hbm, ⟨15, _⟩ => ⟨S8192, .i32⟩
  | .hbm, ⟨16, _⟩ => ⟨S8192, .i32⟩
  | .hbm, ⟨17, _⟩ => ⟨S8192x1, .i32⟩
  | .hbm, ⟨18, _⟩ => ⟨S8192x1, .i32⟩
  | .hbm, ⟨19, _⟩ => ⟨S8192x2, .i32⟩
  | .hbm, ⟨20, _⟩ => ⟨S8192, .f32⟩
  | .hbm, ⟨21, _⟩ => ⟨S_, .f32⟩
  | .hbm, ⟨22, _⟩ => ⟨S8192, .f32⟩
  | .hbm, ⟨23, _⟩ => ⟨S8192, .f32⟩
  | .hbm, ⟨24, _⟩ => ⟨S8192, .f32⟩
  | .hbm, ⟨25, _⟩ => ⟨S_, .f32⟩
  | .hbm, ⟨26, _⟩ => ⟨S8192, .f32⟩
  | .hbm, ⟨27, _⟩ => ⟨S8192, .f32⟩
  | .hbm, ⟨28, _⟩ => ⟨S_, .f32⟩
  | .hbm, ⟨29, _⟩ => ⟨S8192, .f32⟩
  | .hbm, ⟨30, _⟩ => ⟨S8192, .f32⟩
  | .hbm, ⟨31, _⟩ => ⟨S8192, .f32⟩
  | .hbm, ⟨32, _⟩ => ⟨S_, .i32⟩
  | .hbm, ⟨33, _⟩ => ⟨S8192, .i32⟩
  | .hbm, ⟨34, _⟩ => ⟨S8192, .i1⟩
  | .hbm, ⟨35, _⟩ => ⟨S_, .i32⟩
  | .hbm, ⟨36, _⟩ => ⟨S8192, .i32⟩
  | .hbm, ⟨37, _⟩ => ⟨S8192, .i32⟩
  | .hbm, ⟨38, _⟩ => ⟨S8192, .i32⟩
  | .hbm, ⟨39, _⟩ => ⟨S_, .i32⟩
  | .hbm, ⟨40, _⟩ => ⟨S8192, .i32⟩
  | .hbm, ⟨41, _⟩ => ⟨S8192, .i1⟩
  | .hbm, ⟨42, _⟩ => ⟨S_, .i32⟩
  | .hbm, ⟨43, _⟩ => ⟨S8192, .i32⟩
  | .hbm, ⟨44, _⟩ => ⟨S8192, .i32⟩
  | .hbm, ⟨45, _⟩ => ⟨S8192, .i32⟩
  | .hbm, ⟨46, _⟩ => ⟨S8192x1, .i32⟩
  | .hbm, ⟨47, _⟩ => ⟨S8192x1, .i32⟩
  | .hbm, ⟨48, _⟩ => ⟨S8192x2, .i32⟩
  | .hbm, ⟨49, _⟩ => ⟨S8192x10000, .f32⟩
  | .hbm, ⟨50, _⟩ => ⟨S_, .f32⟩
  | .hbm, ⟨51, _⟩ => ⟨S8192x10000, .f32⟩
  | .hbm, ⟨52, _⟩ => ⟨S8192x10000, .f32⟩
  | .hbm, ⟨53, _⟩ => ⟨S_, .f32⟩
  | .hbm, ⟨54, _⟩ => ⟨S8192, .f32⟩
  | .hbm, ⟨55, _⟩ => ⟨S_, .f32⟩
  | .hbm, ⟨56, _⟩ => ⟨S8192, .f32⟩
  | .hbm, ⟨57, _⟩ => ⟨S8192, .f32⟩
  | .hbm, ⟨58, _⟩ => ⟨S8192x1, .f32⟩
  | .hbm, ⟨59, _⟩ => ⟨S8192x10000, .f32⟩
  | .hbm, ⟨60, _⟩ => ⟨S8192x10000, .f32⟩
  | .hbm, ⟨61, _⟩ => ⟨S8192x10000, .f32⟩
  | .hbm, ⟨62, _⟩ => ⟨S_, .f32⟩
  | .hbm, ⟨63, _⟩ => ⟨S8192, .f32⟩
  | .hbm, ⟨64, _⟩ => ⟨S8192x1, .f32⟩
  | .hbm, ⟨65, _⟩ => ⟨S8192x1, .f32⟩
  | .hbm, ⟨66, _⟩ => ⟨S8192x10000, .f32⟩
  | .hbm, ⟨67, _⟩ => ⟨S8192x10000, .f32⟩
  | .hbm, ⟨68, _⟩ => ⟨S_, .i32⟩
  | .hbm, ⟨69, _⟩ => ⟨S8192, .i32⟩
  | .hbm, ⟨70, _⟩ => ⟨S8192, .i1⟩
  | .hbm, ⟨71, _⟩ => ⟨S_, .i32⟩
  | .hbm, ⟨72, _⟩ => ⟨S8192, .i32⟩
  | .hbm, ⟨73, _⟩ => ⟨S8192, .i32⟩
  | .hbm, ⟨74, _⟩ => ⟨S8192, .i32⟩
  | .hbm, ⟨75, _⟩ => ⟨S_, .i32⟩
  | .hbm, ⟨76, _⟩ => ⟨S8192, .i32⟩
  | .hbm, ⟨77, _⟩ => ⟨S8192, .i1⟩
  | .hbm, ⟨78, _⟩ => ⟨S_, .i32⟩
  | .hbm, ⟨79, _⟩ => ⟨S8192, .i32⟩
  | .hbm, ⟨80, _⟩ => ⟨S8192, .i32⟩
  | .hbm, ⟨81, _⟩ => ⟨S8192, .i32⟩
  | .hbm, ⟨82, _⟩ => ⟨S8192x1, .i32⟩
  | .hbm, ⟨83, _⟩ => ⟨S8192x1, .i32⟩
  | .hbm, ⟨84, _⟩ => ⟨S8192x2, .i32⟩
  | .hbm, ⟨85, _⟩ => ⟨S8192, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | _, _ => ⟨S8192x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c_1 : Ref sig .tc := ⟨.hbm, 10, rfl⟩
abbrev main_v6 : Ref sig .tc := ⟨.hbm, 11, rfl⟩
abbrev main_v7 : Ref sig .tc := ⟨.hbm, 12, rfl⟩
abbrev main_c_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_c_5 : Ref sig .tc := ⟨.hbm, 32, rfl⟩
abbrev main_v23 : Ref sig .tc := ⟨.hbm, 33, rfl⟩
abbrev main_v24 : Ref sig .tc := ⟨.hbm, 34, rfl⟩
abbrev main_c_6 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_c_7 : Ref sig .tc := ⟨.hbm, 39, rfl⟩
abbrev main_v28 : Ref sig .tc := ⟨.hbm, 40, rfl⟩
abbrev main_v29 : Ref sig .tc := ⟨.hbm, 41, rfl⟩
abbrev main_c_8 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_9 : Ref sig .tc := ⟨.hbm, 50, rfl⟩
abbrev main_v37 : Ref sig .tc := ⟨.hbm, 51, rfl⟩
abbrev main_v38 : Ref sig .tc := ⟨.hbm, 52, rfl⟩
abbrev main_call0_cst : Ref sig .tc := ⟨.hbm, 53, rfl⟩
abbrev main_call0_v0 : Ref sig .tc := ⟨.hbm, 54, rfl⟩
abbrev main_call0_cst_0 : Ref sig .tc := ⟨.hbm, 55, rfl⟩
abbrev main_call0_v1 : Ref sig .tc := ⟨.hbm, 56, rfl⟩
abbrev main_call0_v2 : Ref sig .tc := ⟨.hbm, 57, rfl⟩
abbrev main_call0_v3 : Ref sig .tc := ⟨.hbm, 58, rfl⟩
abbrev main_call0_v4 : Ref sig .tc := ⟨.hbm, 59, rfl⟩
abbrev main_call0_v5 : Ref sig .tc := ⟨.hbm, 60, rfl⟩
abbrev main_call0_v6 : Ref sig .tc := ⟨.hbm, 61, rfl⟩
abbrev main_call0_cst_1 : Ref sig .tc := ⟨.hbm, 62, rfl⟩
abbrev main_call0_v7 : Ref sig .tc := ⟨.hbm, 63, rfl⟩
abbrev main_call0_v8 : Ref sig .tc := ⟨.hbm, 64, rfl⟩
abbrev main_call0_v9 : Ref sig .tc := ⟨.hbm, 65, rfl⟩
abbrev main_call0_v10 : Ref sig .tc := ⟨.hbm, 66, rfl⟩
abbrev main_v39 : Ref sig .tc := ⟨.hbm, 67, rfl⟩
abbrev main_c_10 : Ref sig .tc := ⟨.hbm, 68, rfl⟩
abbrev main_v40 : Ref sig .tc := ⟨.hbm, 69, rfl⟩
abbrev main_v41 : Ref sig .tc := ⟨.hbm, 70, rfl⟩
abbrev main_c_11 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_c_12 : Ref sig .tc := ⟨.hbm, 75, rfl⟩
abbrev main_v45 : Ref sig .tc := ⟨.hbm, 76, rfl⟩
abbrev main_v46 : Ref sig .tc := ⟨.hbm, 77, rfl⟩
abbrev main_c_13 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_cst_14 : Ref sig .tc := ⟨.hbm, 86, rfl⟩
abbrev main_v54 : Ref sig .tc := ⟨.hbm, 87, rfl⟩
abbrev main_cst_15 : Ref sig .tc := ⟨.hbm, 88, rfl⟩
abbrev main_v55 : Ref sig .tc := ⟨.hbm, 89, rfl⟩
abbrev main_v56 : Ref sig .tc := ⟨.hbm, 90, rfl⟩

abbrev nD : Nat := 1
abbrev τ : Topo := Topo.v7x

variable {F : FTy → Type} [FloatOps F]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  concatenates_S8192x1_S8192x1_S8192x2_d1 : Shape.Concatenates [S8192x1, S8192x1] S8192x2 1
  bcast_S_S8192x10000 : S_.BroadcastsInDim S8192x10000 (![] : Fin 0 → Fin S8192x10000.rank)
  reducesTo_S8192x10000_S8192_d1 : S8192x10000.ReducesTo [1] S8192
  h_S_ : 0 < S_.numel
  bcast_S8192x1_S8192x10000_0_1 : S8192x1.BroadcastsInDim S8192x10000 (![0, 1] : Fin 2 → Fin S8192x10000.rank)
  reducesTo_S8192_S_d0 : S8192.ReducesTo [0] S_
  gather_S8192x10000_S8192x2_S8192_n_01_n_n_01_1_11_wf : GatherDims.WF S8192x10000 S8192x2 S8192 [] [0, 1] [] [0, 1] [] 1 ![1, 1]
  scatter_S8192x10000_S8192x2_S8192_n_01_01_1_wf : ScatterDims.WF S8192x10000 S8192x2 S8192 [] [0, 1] [0, 1] 1

variable [Facts₀]

def gather_S8192x10000_S8192x2_S8192_n_01_n_n_01_1_11 : GatherDims S8192x10000 S8192x2 S8192 where
  offsetDims := []
  collapsedSliceDims := [0, 1]
  operandBatchingDims := []
  startIndicesBatchingDims := []
  startIndexMap := [0, 1]
  indexVectorDim := 1
  sliceSizes := ![1, 1]
  wf := gather_S8192x10000_S8192x2_S8192_n_01_n_n_01_1_11_wf
def scatter_S8192x10000_S8192x2_S8192_n_01_01_1 : ScatterDims S8192x10000 S8192x2 S8192 where
  updateWindowDims := []
  insertedWindowDims := [0, 1]
  scatterDimsToOperandDims := [0, 1]
  indexVectorDim := 1
  wf := scatter_S8192x10000_S8192x2_S8192_n_01_01_1_wf

class Facts : Prop extends Facts₀ where

variable [Facts]
-- ==== Proof.RowMath.lean ====
/-
  One row of the margin softmax loss, as each program computes it on the extended reals, and why the two agree.

  A row is `x : ι → EReal` (the similarities of one sample against every class) with a target class `k`; write
  `t = x k`, `S = 15`, and `δ` for the sample's margin, `δ = 0.15 · exp (1 − t)` (the reference spells it
  `(0.3 · exp (1 − t)) / 2`; the two f32 words denote reals one twice the other, so the margins are one real).

  * `kernelRow x t`: with `m = S · max x` and `s = ∑ⱼ exp (S · xⱼ − m)` taken over the UNADJUSTED row, the row's
    loss is `0 − (S · (t − δ) − (m + log ((s − exp (S · t − m)) + exp (S · (t − δ) − m))))`: the target's term of
    the sum is swapped for its margin-adjusted one.
  * `refRow x k`: the adjusted row `zⱼ = S · (xⱼ + [j = k] · (−δ))`, its maximum `M`, and the log-softmax entry
    `(z_k − M) − log (0 + ∑ⱼ exp (zⱼ − M))`.

  On a row of REAL numbers both are real and `kernelRow = −refRow`: `∑ⱼ exp (zⱼ − m)` is the swapped sum, and
  `exp (zⱼ − M) = exp (zⱼ − m) · exp (m − M)` moves the shift out of the logarithm. Finiteness is used throughout
  (differences and logarithms of infinities are not what the identity needs).
-/
import Idealize.ShloMosaic.PureOps.Ideal
import Idealize.ShloMosaic.PureOps.Ideal.Laws

noncomputable section

namespace Cert.RowMath

open Idealize.ShloMosaic

variable {ι : Type} [Fintype ι] [DecidableEq ι]

/-- The kernel's value for one row `x` whose gathered target similarity is `t`. -/
def kernelRow (x : ι → EReal) (t : EReal) : EReal :=
  let S : EReal := Ideal.ofBits .f32 0x41700000#32
  let δ : EReal := Ideal.ofBits .f32 0x3E19999A#32 * Ideal.exp (Ideal.ofBits .f32 0x3F800000#32 - t)
  let m : EReal := S * Finset.univ.fold max (Ideal.ofBits .f32 0xFF800000#32) x
  let s : EReal := ∑ j, Ideal.exp (S * x j - m)
  Ideal.ofBits .f32 0x00000000#32
    - (S * (t - δ) - (m + Ideal.log ((s - Ideal.exp (S * t - m)) + Ideal.exp (S * (t - δ) - m))))

/-- The reference's value for one row `x` with target class `k`: the log-softmax of the margin-adjusted, scaled
    row, read at the target. -/
def refRow (x : ι → EReal) (k : ι) : EReal :=
  let S : EReal := Ideal.ofBits .f32 0x41700000#32
  let δ : EReal := Ideal.div (Ideal.ofBits .f32 0x3E99999A#32 * Ideal.exp (Ideal.ofBits .f32 0x3F800000#32 - x k))
    (Ideal.ofBits .f32 0x40000000#32)
  let z : ι → EReal := fun j => S * (x j + if j = k then -δ else 0)
  let M : EReal := max (Ideal.ofBits .f32 0xFF800000#32) (Finset.univ.fold max (Ideal.ofBits .f32 0xFF800000#32) z)
  (z k - M) - Ideal.log (Ideal.ofBits .f32 0x00000000#32 + ∑ j, Ideal.exp (z j - M))

/-! ### The constants the two programs spell, as the reals they denote -/

private theorem w_zero : Ideal.ofBits .f32 0x00000000#32 = ((0 : ℝ) : EReal) := by
  simp [Ideal.ofBits, Ideal.ieee]

private theorem w_one : Ideal.ofBits .f32 0x3F800000#32 = ((1 : ℝ) : EReal) := by
  simp [Ideal.ofBits, Ideal.ieee, -EReal.coe_mul]; norm_num

private theorem w_fifteen : Ideal.ofBits .f32 0x41700000#32 = ((15 : ℝ) : EReal) := by
  simp [Ideal.ofBits, Ideal.ieee, -EReal.coe_mul]; norm_num

private theorem w_two : Ideal.ofBits .f32 0x40000000#32 = ((2 : ℝ) : EReal) := by
  simp [Ideal.ofBits, Ideal.ieee, -EReal.coe_mul]; norm_num

private theorem w_count : Ideal.ofBits .f32 0x46000000#32 = ((8192 : ℝ) : EReal) := by
  simp [Ideal.ofBits, Ideal.ieee, -EReal.coe_mul]; norm_num

private theorem w_bot : Ideal.ofBits .f32 0xFF800000#32 = (⊥ : EReal) := by
  simp [Ideal.ofBits, Ideal.ieee]

/-- The kernel's margin coefficient: the real its word denotes (about `0.15`). -/
private def cR : ℝ := 10066330 / 67108864

private theorem w_c : Ideal.ofBits .f32 0x3E19999A#32 = ((cR : ℝ) : EReal) := by
  unfold cR
  simp [Ideal.ofBits, Ideal.ieee, -EReal.coe_mul]; norm_num

/-- The reference's coefficient is exactly twice the kernel's. -/
private theorem w_c2 : Ideal.ofBits .f32 0x3E99999A#32 = ((2 * cR : ℝ) : EReal) := by
  unfold cR
  simp [Ideal.ofBits, Ideal.ieee, -EReal.coe_mul]; norm_num

/-! ### Coercions through a finite sum, a finite maximum, a choice and a logarithm -/

private theorem coe_sum {κ : Type} (s : Finset κ) (f : κ → ℝ) :
    (∑ j ∈ s, ((f j : ℝ) : EReal)) = ((∑ j ∈ s, f j : ℝ) : EReal) := by
  classical
  induction s using Finset.induction_on with
  | empty => simp
  | insert b s hb ih => rw [Finset.sum_insert hb, Finset.sum_insert hb, ih, EReal.coe_add]

/-- The maximum of a nonempty finite family of reals, folded from `-∞` on the extended reals, is a real. -/
private theorem fold_max_coe {κ : Type} (s : Finset κ) (hs : s.Nonempty) (f : κ → ℝ) :
    ∃ r : ℝ, s.fold max (⊥ : EReal) (fun j => ((f j : ℝ) : EReal)) = ((r : ℝ) : EReal) := by
  classical
  induction s using Finset.induction_on with
  | empty => exact absurd hs Finset.not_nonempty_empty
  | insert b s hb ih =>
    rw [Finset.fold_insert hb]
    rcases s.eq_empty_or_nonempty with rfl | hne
    · exact ⟨f b, by simp⟩
    · obtain ⟨r, hr⟩ := ih hne
      rcases le_total (f b) r with h | h
      · exact ⟨r, by rw [hr, max_eq_right (EReal.coe_le_coe_iff.mpr h)]⟩
      · exact ⟨f b, by rw [hr, max_eq_left (EReal.coe_le_coe_iff.mpr h)]⟩

private theorem ite_coe (p : Prop) [Decidable p] (u v : ℝ) :
    (if p then ((u : ℝ) : EReal) else ((v : ℝ) : EReal)) = ((if p then u else v : ℝ) : EReal) := by
  split <;> rfl

private theorem log_coe_pos {r : ℝ} (h : 0 < r) : Ideal.log ((r : ℝ) : EReal) = ((Real.log r : ℝ) : EReal) := by
  rw [Ideal.log_coe, if_neg (not_le.mpr h)]

/-! ### The identity on the reals

  With `B = ∑_{j ≠ k} exp (15 aⱼ − m)` and `E = exp (15 (t − δ) − m)`, the kernel's logarithm is of `A = B + E`
  and the reference's is of `A · exp (m − M)`; both are positive. -/

private theorem real_identity (a : ι → ℝ) (k : ι) (δ m M : ℝ) :
    0 < ((∑ j, Real.exp (15 * a j - m)) - Real.exp (15 * a k - m)) + Real.exp (15 * (a k - δ) - m)
    ∧ 0 < 0 + ∑ j, Real.exp (15 * (a j + if j = k then -δ else 0) - M)
    ∧ (15 * (a k + -δ) - M)
          - Real.log (0 + ∑ j, Real.exp (15 * (a j + if j = k then -δ else 0) - M))
        = -(0 - (15 * (a k - δ)
            - (m + Real.log (((∑ j, Real.exp (15 * a j - m)) - Real.exp (15 * a k - m))
                + Real.exp (15 * (a k - δ) - m))))) := by
  have hs : ∑ j, Real.exp (15 * a j - m)
      = Real.exp (15 * a k - m) + ∑ j ∈ Finset.univ.erase k, Real.exp (15 * a j - m) :=
    (Finset.add_sum_erase Finset.univ (fun j => Real.exp (15 * a j - m)) (Finset.mem_univ k)).symm
  have hB : 0 ≤ ∑ j ∈ Finset.univ.erase k, Real.exp (15 * a j - m) :=
    Finset.sum_nonneg fun j _ => (Real.exp_pos _).le
  have hE : 0 < Real.exp (15 * (a k - δ) - m) := Real.exp_pos _
  have hA : ((∑ j, Real.exp (15 * a j - m)) - Real.exp (15 * a k - m)) + Real.exp (15 * (a k - δ) - m)
      = (∑ j ∈ Finset.univ.erase k, Real.exp (15 * a j - m)) + Real.exp (15 * (a k - δ) - m) := by
    rw [hs]; ring
  have hApos : 0 < ((∑ j, Real.exp (15 * a j - m)) - Real.exp (15 * a k - m)) + Real.exp (15 * (a k - δ) - m) := by
    rw [hA]; exact add_pos_of_nonneg_of_pos hB hE
  have hz : ∑ j, Real.exp (15 * (a j + if j = k then -δ else 0) - M)
      = Real.exp (15 * (a k + if k = k then -δ else 0) - M)
        + ∑ j ∈ Finset.univ.erase k, Real.exp (15 * (a j + if j = k then -δ else 0) - M) :=
    (Finset.add_sum_erase Finset.univ (fun j => Real.exp (15 * (a j + if j = k then -δ else 0) - M))
      (Finset.mem_univ k)).symm
  have hzk : Real.exp (15 * (a k + if k = k then -δ else 0) - M)
      = Real.exp (15 * (a k - δ) - m) * Real.exp (m - M) := by
    rw [if_pos rfl, ← Real.exp_add]; congr 1; ring
  have hzj : ∑ j ∈ Finset.univ.erase k, Real.exp (15 * (a j + if j = k then -δ else 0) - M)
      = (∑ j ∈ Finset.univ.erase k, Real.exp (15 * a j - m)) * Real.exp (m - M) := by
    rw [Finset.sum_mul]
    refine Finset.sum_congr rfl fun j hj => ?_
    rw [if_neg (Finset.ne_of_mem_erase hj), ← Real.exp_add]; congr 1; ring
  have hsum : 0 + ∑ j, Real.exp (15 * (a j + if j = k then -δ else 0) - M)
      = (((∑ j, Real.exp (15 * a j - m)) - Real.exp (15 * a k - m)) + Real.exp (15 * (a k - δ) - m))
        * Real.exp (m - M) := by
    rw [hz, hzk, hzj, hA]; ring
  refine ⟨hApos, ?_, ?_⟩
  · rw [hsum]; exact mul_pos hApos (Real.exp_pos _)
  · rw [hsum, Real.log_mul hApos.ne' (Real.exp_pos _).ne', Real.log_exp]
    ring

/-- On a real row the two values are real and opposite. -/
theorem row_eq [Nonempty ι] (a : ι → ℝ) (k : ι) :
    ∃ ρ : ℝ, kernelRow (fun j => ((a j : ℝ) : EReal)) ((a k : ℝ) : EReal) = ((ρ : ℝ) : EReal)
      ∧ refRow (fun j => ((a j : ℝ) : EReal)) k = ((-ρ : ℝ) : EReal) := by
  obtain ⟨mx, hmx⟩ := fold_max_coe Finset.univ Finset.univ_nonempty a
  obtain ⟨Mr, hMr⟩ := fold_max_coe Finset.univ Finset.univ_nonempty
    (fun j => 15 * (a j + if j = k then -(2 * cR * Real.exp (1 - a k) * (1 / 2)) else 0))
  obtain ⟨hA, hZ, hid⟩ := real_identity a k (2 * cR * Real.exp (1 - a k) * (1 / 2)) (15 * mx) Mr
  have hδ : cR * Real.exp (1 - a k) = 2 * cR * Real.exp (1 - a k) * (1 / 2) := by ring
  refine ⟨0 - (15 * (a k - 2 * cR * Real.exp (1 - a k) * (1 / 2))
      - (15 * mx + Real.log (((∑ j, Real.exp (15 * a j - 15 * mx)) - Real.exp (15 * a k - 15 * mx))
          + Real.exp (15 * (a k - 2 * cR * Real.exp (1 - a k) * (1 / 2)) - 15 * mx)))), ?_, ?_⟩
  · unfold kernelRow
    simp only [w_zero, w_one, w_fifteen, w_c, w_bot, hmx, Ideal.exp_coe, ← EReal.coe_sub, ← EReal.coe_mul,
      coe_sum, ← EReal.coe_add, hδ]
    rw [log_coe_pos hA]
    simp only [← EReal.coe_add, ← EReal.coe_sub]
  · unfold refRow
    simp only [w_zero, w_one, w_fifteen, w_two, w_c2, w_bot, Ideal.exp_coe, ← EReal.coe_sub, ← EReal.coe_mul,
      Ideal.div_coe (show (2 : ℝ) ≠ 0 by norm_num), ← EReal.coe_neg, ← EReal.coe_zero, ite_coe, ← EReal.coe_add,
      hMr, max_eq_right (bot_le : (⊥ : EReal) ≤ _), coe_sum, if_true]
    rw [log_coe_pos hZ]
    simp only [← EReal.coe_sub]
    rw [hid]

/-- The mean over the samples: sums of opposite reals, divided by the sample count `8192`, are opposite. -/
theorem mean_eq {κ : Type} [Fintype κ] (ρ : κ → ℝ) (out g : κ → EReal)
    (hout : ∀ r, out r = ((ρ r : ℝ) : EReal)) (hg : ∀ r, g r = ((-(ρ r) : ℝ) : EReal)) :
    Ideal.div (Ideal.ofBits .f32 0x00000000#32 + ∑ r, out r) (Ideal.ofBits .f32 0x46000000#32)
      = -(Ideal.div (Ideal.ofBits .f32 0x00000000#32 + ∑ r, g r) (Ideal.ofBits .f32 0x46000000#32)) := by
  have h8 : (8192 : ℝ) ≠ 0 := by norm_num
  simp only [hout, hg, w_zero, w_count, coe_sum, ← EReal.coe_add, Ideal.div_coe h8, ← EReal.coe_mul, ← EReal.coe_neg]
  congr 1
  rw [Finset.sum_neg_distrib]; ring

end Cert.RowMath

end
-- ==== Proof.LibPairIndex.lean ====
/-
  jnp's pair indexing `x[arange(n), lab]` over an [n × C] array, as StableHLO prints it, read at an index.

  The start-index table is the [n × 2] array whose row `p` is (`p`, `lab p`), each component first passed through
  numpy's wrap of a negative index (`select (i < 0) (i + extent) i`): `pairTable`. On a table whose row `p` names an
  element (`p`, `col p`) INSIDE the array,
  * the gather with both operand axes collapsed and start-indexed reads that element (`gather_pair_apply`: the
    clamp of an in-range start is the start);
  * the scatter-add with both operand axes inserted adds update `p` to that element and to no other: row `p` of
    the result is row `p` of the operand with `upd p` added at column `col p` (`scatterAdd_pair_apply`: the rows
    are distinct, so an element meets at most its own row's update).
-/
import Idealize.ShloMosaic.Lib.ValueIdx
import Idealize.ShloMosaic.Lib.StableHlo.Predicate
import Idealize.ShloMosaic.PureOps.Ideal
import Idealize.ShloMosaic.PureOps.Ideal.Laws
import Idealize.ShloMosaic.Lib.Pipeline.Value

noncomputable section

namespace Cert.LibPairIndex

open Idealize.ShloMosaic Idealize.ShloMosaic.ValueIdx

variable {n : Nat}

/-- The start indices jnp builds for `x[arange(n), lab]`: column 0 the row numbers, column 1 the labels, each
    wrapped the numpy way (`Nw`, `Cw` are the two extents as 32-bit words). -/
def pairTable (Nw Cw : BitVec 32)
    (hb : (⟨0, ![]⟩ : Shape).BroadcastsInDim ⟨1, ![n]⟩ (![] : Fin 0 → Fin 1))
    (hb1 : (⟨1, ![n]⟩ : Shape).BroadcastsInDim ⟨2, ![n, 1]⟩ (![0] : Fin 1 → Fin 2))
    (hc : Shape.Concatenates [(⟨2, ![n, 1]⟩ : Shape), ⟨2, ![n, 1]⟩] ⟨2, ![n, 2]⟩ 1)
    (lab : IVec ⟨1, ![n]⟩ 32) : IVec ⟨2, ![n, 2]⟩ 32 :=
  concatenate ⟨2, ![n, 2]⟩ 1
    [⟨⟨2, ![n, 1]⟩, broadcastInDim ⟨2, ![n, 1]⟩ ![0] hb1
        (select (cmpi .slt (iotaInDim ⟨1, ![n]⟩ 32 0) (broadcastInDim ⟨1, ![n]⟩ ![] hb (constantI ⟨0, ![]⟩ 32 0#32)))
          (addi (iotaInDim ⟨1, ![n]⟩ 32 0) (broadcastInDim ⟨1, ![n]⟩ ![] hb (constantI ⟨0, ![]⟩ 32 Nw)))
          (iotaInDim ⟨1, ![n]⟩ 32 0))⟩,
     ⟨⟨2, ![n, 1]⟩, broadcastInDim ⟨2, ![n, 1]⟩ ![0] hb1
        (select (cmpi .slt lab (broadcastInDim ⟨1, ![n]⟩ ![] hb (constantI ⟨0, ![]⟩ 32 0#32)))
          (addi lab (broadcastInDim ⟨1, ![n]⟩ ![] hb (constantI ⟨0, ![]⟩ 32 Cw)))
          lab)⟩] hc

variable (Nw Cw : BitVec 32)
  (hb : (⟨0, ![]⟩ : Shape).BroadcastsInDim ⟨1, ![n]⟩ (![] : Fin 0 → Fin 1))
  (hb1 : (⟨1, ![n]⟩ : Shape).BroadcastsInDim ⟨2, ![n, 1]⟩ (![0] : Fin 1 → Fin 2))
  (hc : Shape.Concatenates [(⟨2, ![n, 1]⟩ : Shape), ⟨2, ![n, 1]⟩] ⟨2, ![n, 2]⟩ 1)
  (lab : IVec ⟨1, ![n]⟩ 32)

/-- Piece 0 of the table: the index (`p`, 0) lies in the first [n × 1] column. -/
private theorem pair_left {α : Type} (x₁ x₂ : (⟨2, ![n, 1]⟩ : Shape).Idx → α)
    (hc : Shape.Concatenates [(⟨2, ![n, 1]⟩ : Shape), ⟨2, ![n, 1]⟩] ⟨2, ![n, 2]⟩ 1) (p : Fin n) :
    concatenate ⟨2, ![n, 2]⟩ 1 [⟨⟨2, ![n, 1]⟩, x₁⟩, ⟨⟨2, ![n, 1]⟩, x₂⟩] hc (ix2 p (0 : Fin 2)) = x₁ (ix2 p (0 : Fin 1)) := by
  refine concatenate_pair_apply_left (1 : Fin 2) x₁ x₂ hc (ix2 p (0 : Fin 2)) rfl (ix2 p (0 : Fin 1)) ?_
  intro b
  match b with
  | ⟨0, _⟩ => rfl
  | ⟨1, _⟩ => rfl

/-- Piece 1 of the table: the index (`p`, 1) lies in the second [n × 1] column, at its one position. -/
private theorem pair_right {α : Type} (x₁ x₂ : (⟨2, ![n, 1]⟩ : Shape).Idx → α)
    (hc : Shape.Concatenates [(⟨2, ![n, 1]⟩ : Shape), ⟨2, ![n, 1]⟩] ⟨2, ![n, 2]⟩ 1) (p : Fin n) :
    concatenate ⟨2, ![n, 2]⟩ 1 [⟨⟨2, ![n, 1]⟩, x₁⟩, ⟨⟨2, ![n, 1]⟩, x₂⟩] hc (ix2 p (1 : Fin 2)) = x₂ (ix2 p (0 : Fin 1)) := by
  refine concatenate_pair_apply_right (1 : Fin 2) x₁ x₂ hc (ix2 p (1 : Fin 2)) rfl rfl (ix2 p (0 : Fin 1)) ?_ ?_
  · intro b hb
    match b, hb with
    | ⟨0, _⟩, _ => rfl
    | ⟨1, _⟩, hb => exact absurd rfl hb
  · rfl

/-- A vector kept as an [n × 1] column reads, at (`p`, 0), the vector at `p`. -/
private theorem col_apply {α : Type} (hb1 : (⟨1, ![n]⟩ : Shape).BroadcastsInDim ⟨2, ![n, 1]⟩ (![0] : Fin 1 → Fin 2))
    (v : (⟨1, ![n]⟩ : Shape).Idx → α) (p : Fin n) :
    broadcastInDim ⟨2, ![n, 1]⟩ ![0] hb1 v (ix2 p (0 : Fin 1)) = v (ix1 p) := by
  refine broadcastInDim_apply _ hb1 v _ (ix1 p) ?_
  intro a
  match a with
  | ⟨0, _⟩ =>
    have hp := p.isLt
    show p.val = if n = 1 then 0 else p.val
    split
    · omega
    · rfl

/-- The numpy wrap of a word that is not negative is the word. -/
private theorem wrap_nonneg (x e : BitVec 32) (hx : 0 ≤ x.toInt) :
    Scalar.select (IntOp.cmpi .slt x 0#32) (IntOp.addi x e) x = x := by
  have h : IntOp.cmpi .slt x 0#32 = 0#1 := by
    apply eq_zero_of_ne_one
    intro h1
    have : x.slt 0#32 = true := by
      simpa [IntOp.cmpi, StableHlo.Predicate.ofBool_eq_one_iff] using h1
    simp only [BitVec.slt, decide_eq_true_eq] at this
    have h0 : (0#32 : BitVec 32).toInt = 0 := by decide
    omega
  rw [h, select_zero]

/-- Column 0 of the table at row `p` is the row number (a row number below 2³¹ is not negative, so it is not wrapped). -/
theorem pairTable_row (hn : n < 2 ^ 31) (p : Fin n) :
    (pairTable Nw Cw hb hb1 hc lab (ix2 p (0 : Fin 2))).toInt = (p.val : Int) := by
  have hp := p.isLt
  unfold pairTable
  rw [pair_left, col_apply]
  show (Scalar.select (IntOp.cmpi .slt (BitVec.ofNat 32 p.val) 0#32) (IntOp.addi (BitVec.ofNat 32 p.val) Nw)
    (BitVec.ofNat 32 p.val)).toInt = _
  have hi : (BitVec.ofNat 32 p.val).toInt = (p.val : Int) := StableHlo.Predicate.toInt_ofNat_small p.val (by omega)
  rw [wrap_nonneg _ _ (by rw [hi]; exact Int.natCast_nonneg _), hi]

/-- Column 1 at row `p` is the label itself when the label is not negative. -/
theorem pairTable_col (p : Fin n) (h0 : 0 ≤ (lab (ix1 p)).toInt) :
    pairTable Nw Cw hb hb1 hc lab (ix2 p (1 : Fin 2)) = lab (ix1 p) := by
  unfold pairTable
  rw [pair_right, col_apply]
  show Scalar.select (IntOp.cmpi .slt (lab (ix1 p)) 0#32) (IntOp.addi (lab (ix1 p)) Cw) (lab (ix1 p)) = _
  exact wrap_nonneg _ _ h0

/-- The pair gather reads, at result position `p`, the operand's element (`a`, `b`) when row `p` of the start
    indices is (`a`, `b`) and that is inside the operand. -/
theorem gather_pair_apply {α : Type} {N0 N1 w : Nat} (d : GatherDims ⟨2, ![N0, N1]⟩ ⟨2, ![n, 2]⟩ ⟨1, ![n]⟩)
    (hcoll : d.collapsedSliceDims = [0, 1]) (hob : d.operandBatchingDims = [])
    (hsim : d.startIndexMap = [0, 1]) (hivd : d.indexVectorDim = 1)
    (x : (⟨2, ![N0, N1]⟩ : Shape).Idx → α) (idx : IVec ⟨2, ![n, 2]⟩ w) (p : Fin n) (a : Fin N0) (b : Fin N1)
    (ha : (idx (ix2 p (0 : Fin 2))).toInt = (a.val : Int)) (hb' : (idx (ix2 p (1 : Fin 2))).toInt = (b.val : Int)) :
    Host.gather d x idx (ix1 p) = x (ix2 a b) := by
  -- component `c` of result position `p`'s start index is read at (`p`, `c`) of the table
  have hsi : ∀ (c : Fin 2) (hc : c ∈ d.startIndexMap),
      d.siIdx (ix1 p) ⟨d.startIndexMap.idxOf c, List.idxOf_lt_length_iff.2 hc⟩ = ix2 p c := by
    intro c hc
    funext e
    match e with
    | ⟨0, _⟩ =>
      unfold GatherDims.siIdx
      rw [dif_neg (by rw [hivd]; simp)]
      unfold GatherDims.siCoord
      apply Fin.ext
      simp only [Fin.val_cast]
      have e1 : ∀ X : Fin 1, ((ix1 p : (⟨1, ![n]⟩ : Shape).Idx) X).val = p.val := fun X => by
        have hX : X = 0 := Subsingleton.elim _ _
        subst hX; rfl
      exact e1 _
    | ⟨1, _⟩ =>
      unfold GatherDims.siIdx
      rw [dif_pos (by rw [hivd])]
      apply Fin.ext
      show List.idxOf c d.startIndexMap = c.val
      rw [hsim]
      match c with
      | ⟨0, _⟩ => rfl
      | ⟨1, _⟩ => rfl
  unfold Host.gather
  congr 1
  funext c
  apply Fin.ext
  have hbt : c ∉ d.operandBatchingDims := by rw [hob]; exact List.not_mem_nil
  have hcm : c ∈ d.collapsedSliceDims := by
    rw [hcoll]; match c with
    | ⟨0, _⟩ => simp
    | ⟨1, _⟩ => simp
  have hk : c ∉ d.sKept := by rw [GatherDims.mem_sKept]; exact fun h => h.1 hcm
  have hm : c ∈ d.startIndexMap := by
    rw [hsim]; match c with
    | ⟨0, _⟩ => simp
    | ⟨1, _⟩ => simp
  have hsl : d.sliceSizes c = 1 := d.slice_collapsed c hcm
  simp only [GatherDims.operandIdx, GatherDims.batchCoord_eq_zero _ _ _ hbt, GatherDims.offCoord_eq_zero _ _ _ hk,
    Nat.add_zero, GatherDims.start, dif_pos hm]
  rw [hsi c hm, hsl]
  match c with
  | ⟨0, _⟩ =>
    show min (idx (ix2 p (0 : Fin 2))).toInt.toNat (N0 - 1) = a.val
    rw [ha]
    have := a.isLt
    simp only [Int.toNat_natCast]
    omega
  | ⟨1, _⟩ =>
    show min (idx (ix2 p (1 : Fin 2))).toInt.toNat (N1 - 1) = b.val
    rw [hb']
    have := b.isLt
    simp only [Int.toNat_natCast]
    omega

/-- The pair scatter-add at the ideal instance: when row `p` of the scatter indices is (`p`, `col p`) for every
    `p`, element (`p`, `q`) of the result is the operand's plus update `p` if `q` is `col p`, plus nothing else. -/
theorem scatterAdd_pair_apply {φ : FTy} {N1 w : Nat} (d : ScatterDims ⟨2, ![n, N1]⟩ ⟨2, ![n, 2]⟩ ⟨1, ![n]⟩)
    (huw : d.updateWindowDims = []) (hiw : d.insertedWindowDims = [0, 1])
    (hsd : d.scatterDimsToOperandDims = [0, 1]) (hivd : d.indexVectorDim = 1)
    (x : FVec Ideal ⟨2, ![n, N1]⟩ φ) (idx : IVec ⟨2, ![n, 2]⟩ w) (upd : FVec Ideal ⟨1, ![n]⟩ φ) (col : Fin n → Fin N1)
    (hrow : ∀ p : Fin n, (idx (ix2 p (0 : Fin 2))).toInt = (p.val : Int))
    (hcol : ∀ p : Fin n, (idx (ix2 p (1 : Fin 2))).toInt = ((col p).val : Int))
    (p : Fin n) (q : Fin N1) :
    Host.scatterAdd d x idx upd (ix2 p q) = x (ix2 p q) + (if q = col p then upd (ix1 p) else 0) := by
  classical
  -- component `c` of update `p'`'s scatter index is read at (`p'`, `c`) of the table
  have hsi : ∀ (p' : Fin n) (c : Fin 2) (hc : c ∈ d.scatterDimsToOperandDims),
      d.siIdx (ix1 p') ⟨d.scatterDimsToOperandDims.idxOf c, List.idxOf_lt_length_iff.2 hc⟩ = ix2 p' c := by
    intro p' c hc
    funext e
    match e with
    | ⟨0, _⟩ =>
      unfold ScatterDims.siIdx
      rw [dif_neg (by rw [hivd]; simp)]
      unfold ScatterDims.siCoord
      apply Fin.ext
      simp only [Fin.val_cast]
      have e1 : ∀ X : Fin 1, ((ix1 p' : (⟨1, ![n]⟩ : Shape).Idx) X).val = p'.val := fun X => by
        have hX : X = 0 := Subsingleton.elim _ _
        subst hX; rfl
      exact e1 _
    | ⟨1, _⟩ =>
      unfold ScatterDims.siIdx
      rw [dif_pos (by rw [hivd])]
      apply Fin.ext
      show List.idxOf c d.scatterDimsToOperandDims = c.val
      rw [hsd]
      match c with
      | ⟨0, _⟩ => rfl
      | ⟨1, _⟩ => rfl
  -- the start of update `p'` is (`p'`, `col p'`), and its window coordinate is 0 on both (inserted) axes
  have hstart : ∀ (p' : Fin n) (c : Fin 2), d.start (ix1 p') idx c = ((ix2 p' (col p') c).val : Int) := by
    intro p' c
    have hm : c ∈ d.scatterDimsToOperandDims := by
      rw [hsd]; match c with
      | ⟨0, _⟩ => simp
      | ⟨1, _⟩ => simp
    unfold ScatterDims.start
    rw [dif_pos hm, hsi p' c hm]
    match c with
    | ⟨0, _⟩ => exact hrow p'
    | ⟨1, _⟩ => exact hcol p'
  have hwin : ∀ (p' : Fin n) (c : Fin 2), d.window (ix1 p') c = 0 := by
    intro p' c
    have hk : c ∉ d.sKept := by
      simp only [ScatterDims.sKept, Shape.kept, List.mem_filter, List.mem_finRange, true_and, hiw, decide_not,
        Bool.not_eq_eq_eq_not, Bool.not_true, decide_eq_false_iff_not, not_not]
      match c with
      | ⟨0, _⟩ => simp
      | ⟨1, _⟩ => simp
    unfold ScatterDims.window
    rw [dif_neg hk]
  -- so update `p'` lands at (`p'`, `col p'`), inside the operand
  have hres : ∀ p' : Fin n, d.resultIdx? (ix1 p') idx = some (ix2 p' (col p')) := by
    intro p'
    have H : ∀ c : Fin 2, 0 ≤ d.start (ix1 p') idx c + d.window (ix1 p') c ∧
        d.start (ix1 p') idx c + d.window (ix1 p') c < (⟨2, ![n, N1]⟩ : Shape).size c := by
      intro c
      rw [hstart, hwin]
      have := (ix2 p' (col p') c).isLt
      constructor
      · simp
      · simp only [Nat.cast_zero, add_zero, Nat.cast_lt]; exact this
    unfold ScatterDims.resultIdx?
    rw [dif_pos H]
    congr 1
    funext c
    apply Fin.ext
    show (d.start (ix1 p') idx c + d.window (ix1 p') c).toNat = _
    rw [hstart, hwin]
    simp
  -- the updates landing on (`p`, `q`): update `p` alone when `q` is `col p`, none otherwise
  have hset : (Finset.univ.filter fun j : (⟨1, ![n]⟩ : Shape).Idx => d.resultIdx? j idx = some (ix2 p q))
      = if q = col p then {ix1 p} else ∅ := by
    ext j
    obtain ⟨p', rfl⟩ : ∃ p', j = ix1 p' := ⟨j 0, eq_ix1 j⟩
    rw [Finset.mem_filter, hres p']
    constructor
    · rintro ⟨-, h⟩
      have h' := Option.some.inj h
      have h0 : p' = p := congrFun h' (0 : Fin 2)
      have h1 : col p' = q := congrFun h' (1 : Fin 2)
      subst h0
      rw [if_pos h1.symm]
      exact Finset.mem_singleton_self _
    · intro h
      by_cases hq : q = col p
      · rw [if_pos hq, Finset.mem_singleton] at h
        have h0 : p' = p := congrFun h (0 : Fin 1)
        subst h0
        exact ⟨Finset.mem_univ _, by rw [hq]⟩
      · rw [if_neg hq] at h
        exact absurd h (Finset.notMem_empty _)
  show FloatOps.hostScatterAdd d .single x idx upd (ix2 p q) = _
  rw [Ideal.hostScatterAdd_def]
  show x (ix2 p q) + ∑ j ∈ Finset.univ.filter (fun j => d.resultIdx? j idx = some (ix2 p q)), upd j = _
  rw [hset]
  by_cases hq : q = col p
  · rw [if_pos hq, if_pos hq, Finset.sum_singleton]
  · rw [if_neg hq, if_neg hq, Finset.sum_empty]

end Cert.LibPairIndex

end
-- ==== Proof.Target.lean ====
/-
  The target class of each sample, and the two programs' uses of it.

  Under `0 ≤ label p < 10000` the label of sample `p` is the number of a column, `col p`. Through jnp's start-index
  table `[p, label p]` the gather reads `x (p, col p)`, and the scatter-add adds update `p` to `x (p, col p)` alone.
-/
import proofs.«427576_j74363063763042_3_alg».proof.Proof.LibPairIndex

noncomputable section

namespace Cert.Target

open Idealize.ShloMosaic Idealize.ShloMosaic.ValueIdx Cert.LibPairIndex

/-- The labels are column numbers. -/
def InRange (lab : IVec ⟨1, ![8192]⟩ 32) : Prop :=
  ∀ p : Fin 8192, 0 ≤ (lab (ix1 p)).toInt ∧ (lab (ix1 p)).toInt < 10000

variable {lab : IVec ⟨1, ![8192]⟩ 32} (h : InRange lab)

/-- Sample `p`'s target column. -/
def col (p : Fin 8192) : Fin 10000 := ⟨(lab (ix1 p)).toInt.toNat, by have := h p; omega⟩

theorem col_val (p : Fin 8192) : ((col h p).val : Int) = (lab (ix1 p)).toInt := by
  have := h p
  show ((lab (ix1 p)).toInt.toNat : Int) = _
  omega

variable (hb : (⟨0, ![]⟩ : Shape).BroadcastsInDim ⟨1, ![8192]⟩ (![] : Fin 0 → Fin 1))
  (hb1 : (⟨1, ![8192]⟩ : Shape).BroadcastsInDim ⟨2, ![8192, 1]⟩ (![0] : Fin 1 → Fin 2))
  (hc : Shape.Concatenates [(⟨2, ![8192, 1]⟩ : Shape), ⟨2, ![8192, 1]⟩] ⟨2, ![8192, 2]⟩ 1)

/-- Row `p` of the table is (`p`, `col p`). -/
theorem table_row (p : Fin 8192) :
    (pairTable 8192#32 10000#32 hb hb1 hc lab (ix2 p (0 : Fin 2))).toInt = (p.val : Int) :=
  pairTable_row 8192#32 10000#32 hb hb1 hc lab (by norm_num) p

theorem table_col (p : Fin 8192) :
    (pairTable 8192#32 10000#32 hb hb1 hc lab (ix2 p (1 : Fin 2))).toInt = ((col h p).val : Int) := by
  rw [pairTable_col 8192#32 10000#32 hb hb1 hc lab p (h p).1, col_val]

/-- The gather through the table reads each sample's target entry. -/
theorem gather_table {α : Type} (d : GatherDims ⟨2, ![8192, 10000]⟩ ⟨2, ![8192, 2]⟩ ⟨1, ![8192]⟩)
    (hcoll : d.collapsedSliceDims = [0, 1]) (hob : d.operandBatchingDims = [])
    (hsim : d.startIndexMap = [0, 1]) (hivd : d.indexVectorDim = 1)
    (x : (⟨2, ![8192, 10000]⟩ : Shape).Idx → α) (p : Fin 8192) :
    Host.gather d x (pairTable 8192#32 10000#32 hb hb1 hc lab) (ix1 p) = x (ix2 p (col h p)) :=
  gather_pair_apply d hcoll hob hsim hivd x _ p p (col h p) (table_row hb hb1 hc p) (table_col h hb hb1 hc p)

/-- The scatter-add through the table changes each sample's target entry only. -/
theorem scatter_table (d : ScatterDims ⟨2, ![8192, 10000]⟩ ⟨2, ![8192, 2]⟩ ⟨1, ![8192]⟩)
    (huw : d.updateWindowDims = []) (hiw : d.insertedWindowDims = [0, 1])
    (hsd : d.scatterDimsToOperandDims = [0, 1]) (hivd : d.indexVectorDim = 1)
    (x : FVec Ideal ⟨2, ![8192, 10000]⟩ .f32) (upd : FVec Ideal ⟨1, ![8192]⟩ .f32) (p : Fin 8192) (q : Fin 10000) :
    Host.scatterAdd d x (pairTable 8192#32 10000#32 hb hb1 hc lab) upd (ix2 p q)
      = x (ix2 p q) + (if q = col h p then upd (ix1 p) else 0) :=
  scatterAdd_pair_apply d huw hiw hsd hivd x _ upd (col h) (table_row hb hb1 hc) (table_col h hb hb1 hc) p q

end Cert.Target

end
-- ==== Proof.RefValue.lean ====
/-
  What the reference program returns, as one expression of its two inputs.

  The reference gathers each sample's target similarity `t`, forms the sample's margin `−(0.3 · exp (1 − t)) / 2`, adds
  it into the similarities at the target entry (a scatter-add through the same index table), scales by 15, takes the
  row-wise log-softmax (row maximum from `−∞`, shift, sum of exponentials from zero, logarithm, subtract), gathers the
  target entry again, sums the samples from zero, divides by 8192 and negates. Sample `p`'s gathered entry is
  `RowMath.refRow` of row `p` and its target column.
-/
import proofs.«427576_j74363063763042_3_alg».proof.Proof.RefRun
import proofs.«427576_j74363063763042_3_alg».proof.Proof.RowMath
import proofs.«427576_j74363063763042_3_alg».proof.Proof.Target
import Idealize.ShloMosaic.PureOps.Ideal.Laws
import Idealize.ShloMosaic.Lib.ValueIdx
import Idealize.ShloMosaic.Lib.Pipeline.Value

set_option maxRecDepth 16384

noncomputable section

namespace Cert.ReferenceIdeal.RValue

open Cert.ReferenceIdeal Cert.ReferenceIdeal.Gen Idealize.ShloMosaic Idealize.ShloMosaic.TcCoe Idealize.ShloMosaic.ValueIdx

variable (m : (ℓ : Loc nD τ sig) → Buf (Elt Ideal) ℓ)

/-- The similarities and the labels, as launched, and the start-index table built from the labels. -/
abbrev sims (c : Dev nD) : FVec Ideal S8192x10000 .f32 := m ((c.tc : Thread nD τ).loc main_arg0)
abbrev labs (c : Dev nD) : IVec S8192 32 := m ((c.tc : Thread nD τ).loc main_arg1)
abbrev table (c : Dev nD) : IVec S8192x2 32 :=
  Cert.LibPairIndex.pairTable 8192#32 10000#32 bcast_S_S8192 bcast_S8192_S8192x1_0 concatenates_S8192x1_S8192x1_S8192x2_d1 (labs m c)

/-! ## The stages of the reference, as functions of the similarities `X` and the table `T` -/

/-- Each sample's margin, negated: `−(0.3 · exp (1 − X[p, target p])) / 2`. -/
def margin (X : FVec Ideal S8192x10000 .f32) (T : IVec S8192x2 32) : FVec Ideal S8192 .f32 :=
  Host.negf (Host.divf (mulf (broadcastInDim S8192 ![] bcast_S_S8192 (constant S_ .f32 0x3E99999A#32))
      (Host.exp (subf (broadcastInDim S8192 ![] bcast_S_S8192 (constant S_ .f32 0x3F800000#32))
        (Host.gather gather_S8192x10000_S8192x2_S8192_n_01_n_n_01_1_11 X T))))
    (broadcastInDim S8192 ![] bcast_S_S8192 (constant S_ .f32 0x40000000#32)))

/-- The scaled, margin-adjusted similarities. -/
def logits (X : FVec Ideal S8192x10000 .f32) (T : IVec S8192x2 32) : FVec Ideal S8192x10000 .f32 :=
  mulf (broadcastInDim S8192x10000 ![] bcast_S_S8192x10000 (constant S_ .f32 0x41700000#32))
    (Host.scatterAdd scatter_S8192x10000_S8192x2_S8192_n_01_01_1 X T (margin X T))

/-- The row maxima, from `−∞`. -/
def rowMax (Z : FVec Ideal S8192x10000 .f32) : FVec Ideal S8192 .f32 :=
  maximumf (broadcastInDim S8192 ![] bcast_S_S8192 (constant S_ .f32 0xFF800000#32))
    (Host.reduce FloatOps.maximumf Z (constant S_ .f32 0xFF800000#32) reducesTo_S8192x10000_S8192_d1 h_S_)

/-- The rows shifted by their maxima. -/
def shifted (Z : FVec Ideal S8192x10000 .f32) : FVec Ideal S8192x10000 .f32 :=
  subf Z (broadcastInDim S8192x10000 ![0, 1] bcast_S8192x1_S8192x10000_0_1 (broadcastInDim S8192x1 ![0] bcast_S8192_S8192x1_0 (rowMax Z)))

/-- The row-wise log-softmax. -/
def logProb (Z : FVec Ideal S8192x10000 .f32) : FVec Ideal S8192x10000 .f32 :=
  subf (shifted Z) (broadcastInDim S8192x10000 ![0, 1] bcast_S8192x1_S8192x10000_0_1
    (Host.log (broadcastInDim S8192x1 ![0] bcast_S8192_S8192x1_0
      (Host.reduceAdd (Host.exp (shifted Z)) (constant S_ .f32 0x00000000#32) reducesTo_S8192x10000_S8192_d1 h_S_))))

/-- Each sample's log-probability of its target. -/
def gathered (X : FVec Ideal S8192x10000 .f32) (T : IVec S8192x2 32) : FVec Ideal S8192 .f32 :=
  Host.gather gather_S8192x10000_S8192x2_S8192_n_01_n_n_01_1_11 (logProb (logits X T)) T

/-- The run's composed term is these stages (the same operations, named). -/
theorem res_eq (c : Dev nD) :
    Cert.ReferenceIdeal.ValueP.res_main_v56 m c
      = Host.negf (Host.divf (Host.reduceAdd (gathered (sims m c) (table m c)) (constant S_ .f32 0x00000000#32) reducesTo_S8192_S_d0 h_S_)
          (constant S_ .f32 0x46000000#32)) := by
  rfl

/-! ## Each stage read at an entry -/

/-- The column axis reduces a [8192 × 10000] array to its [8192] rows. -/
private theorem red1 : S8192x10000.Reduces [1] S8192 := by decide

/-- The reduced index with the column coordinate put back is (row, column). -/
private theorem lift_eq (p : Fin 8192) (j : Fin 10000) : red1.lift (ix1 p) j = ix2 p j :=
  Shape.idx_ext₂ rfl rfl

/-- A splat of a scalar constant reads, everywhere, the extended real its word denotes. -/
private theorem splat_apply {t : Shape} (hb : S_.BroadcastsInDim t ![]) (w : BitVec 32) (i : t.Idx) :
    broadcastInDim t ![] hb (constant (F := Ideal) S_ .f32 w) i = Ideal.ofBits .f32 w :=
  (broadcastInDim_apply _ hb _ i ix0 fun a => a.elim0).trans (constant_apply (s := S_) (φ := .f32) w ix0)

/-- A vector kept as a [8192 × 1] column reads, at (`p`, 0), the vector at `p`. -/
private theorem col_apply (w : FVec Ideal S8192 .f32) (p : Fin 8192) :
    broadcastInDim S8192x1 ![0] bcast_S8192_S8192x1_0 w (ix2 p (0 : Fin 1)) = w (ix1 p) :=
  broadcastInDim_apply _ _ w _ (ix1 p) fun a => match a with | ⟨0, _⟩ => rfl

/-- A [8192 × 1] column laid along the columns reads, at (`p`, `j`), the column at (`p`, 0). -/
private theorem rows_apply (v : FVec Ideal S8192x1 .f32) (p : Fin 8192) (j : Fin 10000) :
    broadcastInDim S8192x10000 ![0, 1] bcast_S8192x1_S8192x10000_0_1 v (ix2 p j) = v (ix2 p (0 : Fin 1)) :=
  broadcastInDim_apply _ _ v _ (ix2 p (0 : Fin 1)) fun a => match a with | ⟨0, _⟩ => rfl | ⟨1, _⟩ => rfl

/-- The fold of the instance's maximum is the fold of `max`, over any finite family. -/
private theorem fold_maximumf {κ : Type} (s : Finset κ) (b : EReal) (f : κ → EReal) :
    s.fold (FloatOps.maximumf (F := Ideal) (φ := .f32)) b f = s.fold max b f := rfl

/-- The row maximum at row `p`: the maximum with `−∞` of the fold of `max` from `−∞` along the row. -/
private theorem rowMax_entry (Z : FVec Ideal S8192x10000 .f32) (p : Fin 8192) :
    rowMax Z (ix1 p)
      = max (Ideal.ofBits .f32 0xFF800000#32)
          (Finset.univ.fold max (Ideal.ofBits .f32 0xFF800000#32) (fun j : Fin 10000 => Z (ix2 p j))) := by
  have hf : (Z ∘ red1.lift (ix1 p)) = fun j : Fin 10000 => Z (ix2 p j) :=
    funext fun j => congrArg Z (lift_eq p j)
  unfold rowMax
  rw [maximumf_apply, splat_apply,
    Host.reduce_eq_fold_single FloatOps.maximumf Z _ reducesTo_S8192x10000_S8192_d1 red1 h_S_ (ix1 p),
    fold_maximumf, constant_apply, hf]
  rfl

/-- The row sum, from zero, at row `p`. -/
private theorem rowSum_entry (Y : FVec Ideal S8192x10000 .f32) (p : Fin 8192) :
    Host.reduceAdd Y (constant S_ .f32 0x00000000#32) reducesTo_S8192x10000_S8192_d1 h_S_ (ix1 p)
      = Ideal.ofBits .f32 0x00000000#32 + ∑ j : Fin 10000, Y (ix2 p j) := by
  have e : Host.reduceAdd Y (constant S_ .f32 0x00000000#32) reducesTo_S8192x10000_S8192_d1 h_S_
      = Ideal.hostReduceAdd reducesTo_S8192x10000_S8192_d1 Y (Ideal.ofBits .f32 0x00000000#32) := rfl
  rw [e, Ideal.hostReduceAdd_single reducesTo_S8192x10000_S8192_d1 red1]
  exact congrArg (Ideal.ofBits .f32 0x00000000#32 + ·)
    (Finset.sum_congr rfl fun j _ => congrArg Y (lift_eq p j))

/-- The shifted row at (`p`, `j`). -/
private theorem shifted_entry (Z : FVec Ideal S8192x10000 .f32) (p : Fin 8192) (j : Fin 10000) :
    shifted Z (ix2 p j) = Z (ix2 p j) - rowMax Z (ix1 p) := by
  unfold shifted
  rw [subf_apply, rows_apply, col_apply]

/-- The host's logarithm and exponential of a vector are entrywise. -/
private theorem hostLog_apply {s : Shape} (v : FVec Ideal s .f32) (i : s.Idx) : Host.log v i = Ideal.log (v i) := rfl
private theorem hostExp_apply {s : Shape} (v : FVec Ideal s .f32) (i : s.Idx) : Host.exp v i = Ideal.exp (v i) := rfl

/-- The log-softmax at (`p`, `j`): the shifted entry minus the logarithm of the row's sum of exponentials. -/
private theorem logProb_entry (Z : FVec Ideal S8192x10000 .f32) (p : Fin 8192) (j : Fin 10000) :
    logProb Z (ix2 p j)
      = shifted Z (ix2 p j)
        - Ideal.log (Ideal.ofBits .f32 0x00000000#32 + ∑ q : Fin 10000, Ideal.exp (shifted Z (ix2 p q))) := by
  have hs : (∑ q : Fin 10000, Host.exp (shifted Z) (ix2 p q)) = ∑ q : Fin 10000, Ideal.exp (shifted Z (ix2 p q)) :=
    Finset.sum_congr rfl fun q _ => hostExp_apply (shifted Z) (ix2 p q)
  unfold logProb
  rw [subf_apply, rows_apply, hostLog_apply, col_apply, rowSum_entry, hs]

/-- The host's negation and quotient of vectors are entrywise. -/
private theorem hostNegf_apply {s : Shape} (v : FVec Ideal s .f32) (i : s.Idx) : Host.negf v i = -(v i) := rfl
private theorem hostDivf_apply {s : Shape} (a b : FVec Ideal s .f32) (i : s.Idx) :
    Host.divf a b i = Ideal.div (a i) (b i) := rfl

/-! ## The stages at an entry -/

variable {c : Dev nD} (h : Cert.Target.InRange (labs m c))

/-- Sample `p`'s negated margin, from its target similarity. -/
private theorem margin_entry (p : Fin 8192) :
    margin (sims m c) (table m c) (ix1 p)
      = -(Ideal.div (Ideal.ofBits .f32 0x3E99999A#32
            * Ideal.exp (Ideal.ofBits .f32 0x3F800000#32 - sims m c (ix2 p (Cert.Target.col h p))))
          (Ideal.ofBits .f32 0x40000000#32)) := by
  have hg := Cert.Target.gather_table h bcast_S_S8192 bcast_S8192_S8192x1_0 concatenates_S8192x1_S8192x1_S8192x2_d1
    gather_S8192x10000_S8192x2_S8192_n_01_n_n_01_1_11 rfl rfl rfl rfl (sims m c) p
  unfold margin
  rw [hostNegf_apply, hostDivf_apply, mulf_apply, hostExp_apply, subf_apply, splat_apply, splat_apply, splat_apply, hg]

/-- The scaled, margin-adjusted similarity at (`p`, `q`): the margin enters at the target column only. -/
private theorem logits_entry (p : Fin 8192) (q : Fin 10000) :
    logits (sims m c) (table m c) (ix2 p q)
      = Ideal.ofBits .f32 0x41700000#32
        * (sims m c (ix2 p q)
          + if q = Cert.Target.col h p then
              -(Ideal.div (Ideal.ofBits .f32 0x3E99999A#32
                  * Ideal.exp (Ideal.ofBits .f32 0x3F800000#32 - sims m c (ix2 p (Cert.Target.col h p))))
                (Ideal.ofBits .f32 0x40000000#32))
            else 0) := by
  have hsc := Cert.Target.scatter_table h bcast_S_S8192 bcast_S8192_S8192x1_0 concatenates_S8192x1_S8192x1_S8192x2_d1
    scatter_S8192x10000_S8192x2_S8192_n_01_01_1 rfl rfl rfl rfl (sims m c) (margin (sims m c) (table m c)) p q
  unfold logits
  rw [mulf_apply, splat_apply, hsc, margin_entry m h p]

/-- Sample `p`'s gathered entry is the reference's row value of row `p` at its target column. -/
theorem gathered_apply (p : Fin 8192) :
    gathered (sims m c) (table m c) (ix1 p)
      = Cert.RowMath.refRow (fun q : Fin 10000 => sims m c (ix2 p q)) (Cert.Target.col h p) := by
  have hz : ∀ q : Fin 10000, logits (sims m c) (table m c) (ix2 p q)
      = Ideal.ofBits .f32 0x41700000#32
        * (sims m c (ix2 p q)
          + if q = Cert.Target.col h p then
              -(Ideal.div (Ideal.ofBits .f32 0x3E99999A#32
                  * Ideal.exp (Ideal.ofBits .f32 0x3F800000#32 - sims m c (ix2 p (Cert.Target.col h p))))
                (Ideal.ofBits .f32 0x40000000#32))
            else 0) := fun q => logits_entry m h p q
  have hM := rowMax_entry (logits (sims m c) (table m c)) p
  rw [funext hz] at hM
  have hsh : ∀ q : Fin 10000, shifted (logits (sims m c) (table m c)) (ix2 p q)
      = logits (sims m c) (table m c) (ix2 p q) - rowMax (logits (sims m c) (table m c)) (ix1 p) :=
    fun q => shifted_entry _ p q
  have hg := Cert.Target.gather_table h bcast_S_S8192 bcast_S8192_S8192x1_0 concatenates_S8192x1_S8192x1_S8192x2_d1
    gather_S8192x10000_S8192x2_S8192_n_01_n_n_01_1_11 rfl rfl rfl rfl (logProb (logits (sims m c) (table m c))) p
  unfold gathered
  rw [hg, logProb_entry, Finset.sum_congr rfl (fun q _ => congrArg Ideal.exp ((hsh q).trans (by rw [hz q, hM]))),
    hsh, hz, hM]
  unfold Cert.RowMath.refRow
  rfl

/-- The array of the samples' values. -/
def valArr (c : Dev nD) (h : Cert.Target.InRange (labs m c)) : S8192.Idx → EReal := fun i =>
  Cert.RowMath.refRow (fun q : Fin 10000 => sims m c (ix2 (i 0) q)) (Cert.Target.col h (i 0))

/-- The value the program returns: minus the mean of the samples' values. -/
def result (c : Dev nD) (h : Cert.Target.InRange (labs m c)) : S_.Idx → EReal := fun _ =>
  -(Ideal.div (Ideal.ofBits .f32 0x00000000#32 + ∑ i : S8192.Idx, valArr m c h i) (Ideal.ofBits .f32 0x46000000#32))

theorem res_value : Cert.ReferenceIdeal.ValueP.res_main_v56 m c = result m c h := by
  have e : Host.reduceAdd (gathered (sims m c) (table m c)) (constant S_ .f32 0x00000000#32) reducesTo_S8192_S_d0 h_S_
      = Ideal.hostReduceAdd reducesTo_S8192_S_d0 (gathered (sims m c) (table m c))
          (Ideal.ofBits .f32 0x00000000#32) := rfl
  have hs : ∑ i : S8192.Idx, gathered (sims m c) (table m c) i = ∑ i : S8192.Idx, valArr m c h i :=
    Finset.sum_congr rfl fun i _ =>
      (congrArg (gathered (sims m c) (table m c)) (eq_ix1 i)).trans (gathered_apply m h (i 0))
  rw [res_eq m c]
  funext i
  rw [hostNegf_apply, hostDivf_apply, constant_apply, e,
    Ideal.hostReduceAdd_total reducesTo_S8192_S_d0 (fun b => b.elim0), hs]
  rfl

end Cert.ReferenceIdeal.RValue

end
-- ==== Proof.RefStages.lean ====
/-
  The reference's run, stretch by stretch.

  The 89 host operations are read in three stretches: the first 51 end at the scaled, margin-adjusted similarities
  (two start-index tables, the gather, the margin, the scatter-add, the scaling); the next 15 are the row-wise
  log-softmax; the last 23 build the table once more, gather each sample's target entry, sum, divide and negate. Each
  stretch's result is a function of what the stretch before left in a few buffers, so the run's result is the
  composition: the stages of `RValue`, applied to the launch contents.
-/
import proofs.«427576_j74363063763042_3_alg».proof.Proof.RefRun
import proofs.«427576_j74363063763042_3_alg».proof.Proof.RefValue
import Idealize.ShloMosaic.Lib.StableHlo.Run

set_option maxRecDepth 16384

noncomputable section

namespace Cert.ReferenceIdeal.RStages

open Cert.ReferenceIdeal Cert.ReferenceIdeal.Gen Idealize.ShloMosaic Idealize.ShloMosaic.TcCoe Idealize.SL.Sem
open Idealize.ShloMosaic.StableHlo Cert.ReferenceIdeal.RValue

/-- The operations, at the ideal instance. -/
abbrev Ops : List (HloOp τ sig (Elt Ideal)) := Cert.ReferenceIdeal.ValueP.ops (F := Ideal)

/-- Running a list of operations in two parts. -/
theorem after_append (l₁ l₂ : List (HloOp τ sig (Elt Ideal))) (V : Valuation τ sig (Elt Ideal)) :
    after (l₁ ++ l₂) V = after l₂ (after l₁ V) := by
  induction l₁ generalizing V with
  | nil => rfl
  | cons op l ih => exact ih _

/-- A two-piece concatenate depends on its pieces' contents only (as a congruence rule: the pieces are rewritten inside). -/
@[local congr] theorem concat2_congr {α : Type} (t : Shape) (ax : Fin t.rank) (s : Shape) (a a' b b' : s.Idx → α)
    (h : Shape.Concatenates [s, s] t ax) (ha : a = a') (hb : b = b') :
    concatenate t ax [⟨s, a⟩, ⟨s, b⟩] h = concatenate t ax [⟨s, a'⟩, ⟨s, b'⟩] h := by subst ha hb; rfl

/-- The three stretches. -/
abbrev opsA : List (HloOp τ sig (Elt Ideal)) := Ops.take 51
abbrev opsB : List (HloOp τ sig (Elt Ideal)) := (Ops.drop 51).take 15
abbrev opsC : List (HloOp τ sig (Elt Ideal)) := (Ops.drop 51).drop 15

theorem ops_split : Ops = opsA ++ (opsB ++ opsC) := by
  show Ops = Ops.take 51 ++ ((Ops.drop 51).take 15 ++ (Ops.drop 51).drop 15)
  rw [List.take_append_drop, List.take_append_drop]

/-- The start-index table over any row-number vector `io` (the run computes the row numbers once and reuses them). -/
def tableOf (io lab : IVec S8192 32) : IVec S8192x2 32 :=
  concatenate S8192x2 1
    [⟨S8192x1, broadcastInDim S8192x1 ![0] bcast_S8192_S8192x1_0
        (select (cmpi .slt io (broadcastInDim S8192 ![] bcast_S_S8192 (constantI S_ 32 0#32)))
          (addi io (broadcastInDim S8192 ![] bcast_S_S8192 (constantI S_ 32 8192#32))) io)⟩,
     ⟨S8192x1, broadcastInDim S8192x1 ![0] bcast_S8192_S8192x1_0
        (select (cmpi .slt lab (broadcastInDim S8192 ![] bcast_S_S8192 (constantI S_ 32 0#32)))
          (addi lab (broadcastInDim S8192 ![] bcast_S_S8192 (constantI S_ 32 10000#32))) lab)⟩]
    concatenates_S8192x1_S8192x1_S8192x2_d1

theorem tableOf_iota (lab : IVec S8192 32) :
    tableOf (iotaInDim S8192 32 0) lab
      = Cert.LibPairIndex.pairTable 8192#32 10000#32 bcast_S_S8192 bcast_S8192_S8192x1_0 concatenates_S8192x1_S8192x1_S8192x2_d1 lab := rfl

variable (V : Valuation τ sig (Elt Ideal))

/-! ## The first stretch -/

theorem A_v38 : after opsA V (Proc.devRef .tc main_v38)
    = logits (V (Proc.devRef .tc main_arg0))
        (Cert.LibPairIndex.pairTable 8192#32 10000#32 bcast_S_S8192 bcast_S8192_S8192x1_0 concatenates_S8192x1_S8192x1_S8192x2_d1 (V (Proc.devRef .tc main_arg1))) := by
  show after (List.take 51 Ops) V _ = _
  simp only [Cert.ReferenceIdeal.ValueP.ops, List.take_succ_cons, List.take_zero]
  after_results_simp
  rfl

theorem A_arg1 : after opsA V (Proc.devRef .tc main_arg1) = V (Proc.devRef .tc main_arg1) := by
  show after (List.take 51 Ops) V _ = _
  simp only [Cert.ReferenceIdeal.ValueP.ops, List.take_succ_cons, List.take_zero]
  after_results_simp

theorem A_v0 : after opsA V (Proc.devRef .tc main_v0) = iotaInDim S8192 32 0 := by
  show after (List.take 51 Ops) V _ = _
  simp only [Cert.ReferenceIdeal.ValueP.ops, List.take_succ_cons, List.take_zero]
  after_results_simp

/-! ## The second stretch: the log-softmax -/

theorem B_v39 : after opsB V (Proc.devRef .tc main_v39) = logProb (V (Proc.devRef .tc main_v38)) := by
  show after (List.take 15 (List.drop 51 Ops)) V _ = _
  simp only [Cert.ReferenceIdeal.ValueP.ops, List.drop_succ_cons, List.drop_zero, List.take_succ_cons, List.take_zero]
  after_results_simp
  dsimp only [TRef.ofBuf, TRef.toBuf]
  repeat rw [cast_eq]
  rfl

theorem B_arg1 : after opsB V (Proc.devRef .tc main_arg1) = V (Proc.devRef .tc main_arg1) := by
  show after (List.take 15 (List.drop 51 Ops)) V _ = _
  simp only [Cert.ReferenceIdeal.ValueP.ops, List.drop_succ_cons, List.drop_zero, List.take_succ_cons, List.take_zero]
  after_results_simp

theorem B_v0 : after opsB V (Proc.devRef .tc main_v0) = V (Proc.devRef .tc main_v0) := by
  show after (List.take 15 (List.drop 51 Ops)) V _ = _
  simp only [Cert.ReferenceIdeal.ValueP.ops, List.drop_succ_cons, List.drop_zero, List.take_succ_cons, List.take_zero]
  after_results_simp

/-! ## The third stretch: the target entries and their mean -/

theorem C_v56 : after opsC V (Proc.devRef .tc main_v56)
    = Host.negf (F := Ideal) (Host.divf (Host.reduceAdd
        (Host.gather gather_S8192x10000_S8192x2_S8192_n_01_n_n_01_1_11 (V (Proc.devRef .tc main_v39) : FVec Ideal S8192x10000 .f32)
          (tableOf (V (Proc.devRef .tc main_v0)) (V (Proc.devRef .tc main_arg1))))
        (constant S_ .f32 0x00000000#32) reducesTo_S8192_S_d0 h_S_) (constant S_ .f32 0x46000000#32)) := by
  show after (List.drop 15 (List.drop 51 Ops)) V _ = _
  simp only [Cert.ReferenceIdeal.ValueP.ops, List.drop_succ_cons, List.drop_zero]
  after_results_simp
  rfl

/-! ## The whole list, and the run -/

/-- After all 89 operations the result buffer holds the stages applied to the launch contents. -/
theorem after_ops_v56 : after Ops V (Proc.devRef .tc main_v56)
    = Host.negf (F := Ideal) (Host.divf (Host.reduceAdd
        (gathered (V (Proc.devRef .tc main_arg0))
          (Cert.LibPairIndex.pairTable 8192#32 10000#32 bcast_S_S8192 bcast_S8192_S8192x1_0 concatenates_S8192x1_S8192x1_S8192x2_d1 (V (Proc.devRef .tc main_arg1))))
        (constant S_ .f32 0x00000000#32) reducesTo_S8192_S_d0 h_S_) (constant S_ .f32 0x46000000#32)) := by
  rw [ops_split, after_append, after_append, C_v56, B_v39, B_v0, B_arg1, A_v38, A_v0, A_arg1, tableOf_iota]
  rfl

/-- No operation writes an argument. -/
theorem after_ops_arg0 : after Ops V (Proc.devRef .tc main_arg0) = V (Proc.devRef .tc main_arg0) := by
  show after Cert.ReferenceIdeal.ValueP.ops V _ = _
  after_results_simp
theorem after_ops_arg1 : after Ops V (Proc.devRef .tc main_arg1) = V (Proc.devRef .tc main_arg1) := by
  show after Cert.ReferenceIdeal.ValueP.ops V _ = _
  after_results_simp

/-- The run: every weakly fair execution terminates with the result at the stages of the launch contents and the two
    arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v56)
        = Host.negf (F := Ideal) (Host.divf (Host.reduceAdd (gathered (sims m c) (table m c))
            (constant S_ .f32 0x00000000#32) reducesTo_S8192_S_d0 h_S_) (constant S_ .f32 0x46000000#32))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v56).trans (after_ops_v56 _), (h c main_arg0).trans (after_ops_arg0 _),
      (h c main_arg1).trans (after_ops_arg1 _)⟩)
    (run_seq Cert.ReferenceIdeal.ValueP.scopedRefs_eq Cert.ReferenceIdeal.ValueP.scopedSems_eq defs main (fun _ => Ops)
      Cert.ReferenceIdeal.ValueP.main_eq (fun _ => Cert.ReferenceIdeal.ValueP.ops_sub) m ρ)

end Cert.ReferenceIdeal.RStages

end
-- ==== Proof.PreFacts.lean ====
/-
  What the precondition says of the two inputs, read off its printed form.

  The printed predicate is the conjunction of two `all`-reductions: over the similarities, `|x| < +∞` entry by
  entry; over the labels, `0 ≤ l` and `l < 10000` (signed), entry by entry. So every similarity is a real number,
  and every label is the number of a column.
-/
import proofs.«427576_j74363063763042_3_alg».proof.Pre_finite_inputs
import Idealize.ShloMosaic.Lib.ReduceAll
import Idealize.ShloMosaic.Lib.ValueIdx
import Idealize.ShloMosaic.Lib.Pipeline.Value
import Idealize.ShloMosaic.PureOps.Ideal.Laws

noncomputable section

namespace Cert.PreFacts

open Idealize.ShloMosaic Idealize.ShloMosaic.ValueIdx Cert.Pre_finite_inputs

instance : Subsingleton S_.Idx := ⟨fun a b => funext fun d => d.elim0⟩

/-- An extended real whose absolute value is below `+∞` is a real number. -/
theorem real_of_abs_lt_top (x : EReal) (h : max x (-x) < ⊤) : ∃ r : ℝ, x = (r : EReal) := by
  induction x using EReal.rec with
  | bot => exact absurd h (by simp)
  | coe r => exact ⟨r, rfl⟩
  | top => exact absurd h (by simp)

variable [Facts]

theorem of_pre (x : FVec Ideal S8192x10000 .f32) (lab : IVec S8192 32)
    (h : fn (F := Ideal) x lab = fun _ => 1#1) :
    (∀ i : S8192x10000.Idx, ∃ r : ℝ, x i = (r : EReal))
      ∧ ∀ p : Fin 8192, 0 ≤ (lab (ix1 p)).toInt ∧ (lab (ix1 p)).toInt < 10000 := by
  have e := congrFun h ix0
  dsimp only [fn] at e
  obtain ⟨e1, e2⟩ := IntOp.andi_eq_one.1 (show IntOp.andi _ _ = 1#1 from e)
  refine ⟨fun i => ?_, fun p => ?_⟩
  · -- the entry's test: |x i| < +∞
    have hi := Host.reduce_andi_all _ _ _ _ _ e1 i
    have hb : broadcastInDim S8192x10000 ![] Facts.bcast_S_S8192x10000 (constant (F := Ideal) S_ .f32 0x7F800000#32) i
        = Ideal.ofBits .f32 0x7F800000#32 :=
      broadcastInDim_apply _ Facts.bcast_S_S8192x10000 (constant (F := Ideal) S_ .f32 0x7F800000#32) i ix0 (fun a => a.elim0)
    have hi' : Ideal.cmp .olt (max (x i) (-(x i))) (Ideal.ofBits .f32 0x7F800000#32) = 1#1 := by
      rw [← hb]; exact hi
    have htop : Ideal.ofBits .f32 0x7F800000#32 = (⊤ : EReal) := by simp [Ideal.ofBits, Ideal.ieee]
    rw [htop] at hi'
    have hlt : max (x i) (-(x i)) < ⊤ := by
      by_contra hn
      have hd : BitVec.ofBool (decide (max (x i) (-(x i)) < (⊤ : EReal))) = 1#1 := hi'
      rw [decide_eq_false hn] at hd
      exact absurd hd (by decide)
    exact real_of_abs_lt_top _ hlt
  · -- the label's test: 0 ≤ l ∧ l < 10000, signed
    have hp := Host.reduce_andi_all _ _ _ _ _ e2 (ix1 p)
    have h0 : broadcastInDim S8192 ![] Facts.bcast_S_S8192 (constantI S_ 32 0#32) (ix1 p) = 0#32 :=
      broadcastInDim_apply _ Facts.bcast_S_S8192 (constantI S_ 32 0#32) (ix1 p) ix0 (fun a => a.elim0)
    have hC : broadcastInDim S8192 ![] Facts.bcast_S_S8192 (constantI S_ 32 10000#32) (ix1 p) = 10000#32 :=
      broadcastInDim_apply _ Facts.bcast_S_S8192 (constantI S_ 32 10000#32) (ix1 p) ix0 (fun a => a.elim0)
    obtain ⟨hge, hlt⟩ := IntOp.andi_eq_one.1 (show IntOp.andi (IntOp.cmpi .sge (lab (ix1 p)) _) (IntOp.cmpi .slt (lab (ix1 p)) _) = 1#1 from hp)
    rw [h0] at hge
    rw [hC] at hlt
    have a0 : (0#32 : BitVec 32).toInt = 0 := by decide
    have aC : (10000#32 : BitVec 32).toInt = 10000 := by decide
    exact ⟨a0 ▸ IntOp.cmpi_sge.1 hge, aC ▸ IntOp.cmpi_slt.1 hlt⟩

end Cert.PreFacts

end
-- ==== Proof.ColumnLayout.lean ====
/-
  A vector kept as a column: the three re-layouts of an [a] vector and an [a, 1] column, read at an index.
  An [a] vector cast to an [a, 1] column and back keeps entry `i` at row `i`; a column broadcast along a second axis
  of any length is constant along each row.
-/
import Idealize.ShloMosaic.Lib.ValueIdx
import Idealize.ShloMosaic.Lib.Pipeline.Value

namespace Cert.ColumnLayout

open Idealize.ShloMosaic Idealize.ShloMosaic.ValueIdx

variable {α : Type}

/-- An `[a]` vector cast to an `[a, 1]` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column cast to an `[a]` vector reads, at `i`, the column at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.ColumnLayout
-- ==== Proof.KernelRow.lean ====
/-
  The kernel body's stored value, row by row.

  The body loads a [128 × 10000] block of similarities and the [128 × 1] column of their gathered target entries and
  stores a [128] vector. Entry `p` of that vector depends on row `p` of the block and entry `p` of the column only:
  the two lane reductions (the row maximum and the row sum of exponentials) run along the row, and everything else is
  entrywise on columns. It is `RowMath.kernelRow` of that row and that entry.
-/
import proofs.«427576_j74363063763042_3_alg».proof.Proof.Gen.KernelIdeal.Skeleton
import proofs.«427576_j74363063763042_3_alg».proof.Proof.RowMath
import proofs.«427576_j74363063763042_3_alg».proof.Proof.ColumnLayout
import Idealize.ShloMosaic.PureOps.Ideal.Laws
import Idealize.ShloMosaic.Lib.ValueIdx
import Idealize.ShloMosaic.Lib.Pipeline.Value

noncomputable section

namespace Cert.KernelIdeal.KRow

open Cert.KernelIdeal Cert.KernelIdeal.Gen Idealize.ShloMosaic Idealize.ShloMosaic.ValueIdx Cert.ColumnLayout

/-- The exponential and the logarithm of a vector are entrywise. -/
theorem exp_apply {s : Shape} (a : FVec Ideal s .f32) (i : s.Idx) : exp a i = Ideal.exp (a i) := rfl
theorem log_apply {s : Shape} (a : FVec Ideal s .f32) (i : s.Idx) : log a i = Ideal.log (a i) := rfl

/-- The reduced index with the lane coordinate put back is (row, lane). -/
theorem lift_eq (p : Fin 128) (j : Fin 10000) :
    (Gen.reduces_S128x10000_S128 : S128x10000.Reduces [1] S128).lift (ix1 p) j = ix2 p j :=
  Shape.idx_ext₂ rfl rfl

/-- The row maximum, from `-∞`, at row `p`. -/
theorem rowMax_apply (src : FVec Ideal S128x10000 .f32) (p : Fin 128) :
    multiReduction .maximumf [1] S128 src 0xFF800000#32 Gen.reduces_S128x10000_S128 (.inl rfl) rfl (ix1 p)
      = Finset.univ.fold max (Ideal.ofBits .f32 0xFF800000#32) (fun j : Fin 10000 => src (ix2 p j)) := by
  refine (Ideal.multiReduction_maximumf_single src _ Gen.reduces_S128x10000_S128 (.inl rfl) rfl (ix1 p)).trans ?_
  show Finset.univ.fold max (Ideal.ofBits .f32 0xFF800000#32) (fun j : Fin 10000 => src (Gen.reduces_S128x10000_S128.lift (ix1 p) j)) = _
  simp only [lift_eq]

/-- The row sum at row `p`. -/
theorem rowSum_apply (src : FVec Ideal S128x10000 .f32) (p : Fin 128) :
    multiReduction .add [1] S128 src 0x00000000#32 Gen.reduces_S128x10000_S128 (.inl rfl) rfl (ix1 p)
      = ∑ j : Fin 10000, src (ix2 p j) := by
  refine (Ideal.multiReduction_add_single src _ Gen.reduces_S128x10000_S128 (.inl rfl) rfl (ix1 p)).trans ?_
  show ∑ j : Fin 10000, src (Gen.reduces_S128x10000_S128.lift (ix1 p) j) = _
  simp only [lift_eq]

/-- The entrywise part of the body, on [128 × 1] columns: from the target column `t`, the row-maximum column `mx` and the
    row-sum column `sm` to the stored column. -/
def colPost (t mx sm : FVec Ideal S128x1 .f32) : FVec Ideal S128x1 .f32 :=
  have δ : FVec Ideal S128x1 .f32 := mulf (broadcast S128x1 (Scalar.ofBits .f32 0x3E19999A#32))
    (exp (subf (broadcast S128x1 (Scalar.ofBits .f32 0x3F800000#32)) t))
  have m : FVec Ideal S128x1 .f32 := mulf (broadcast S128x1 (Scalar.ofBits .f32 0x41700000#32)) mx
  subf (broadcast S128x1 (Scalar.ofBits .f32 0x00000000#32))
    (subf (mulf (broadcast S128x1 (Scalar.ofBits .f32 0x41700000#32)) (subf t δ))
      (addf m (log (addf
        (subf sm (exp (subf (mulf (broadcast S128x1 (Scalar.ofBits .f32 0x41700000#32)) t) m)))
        (exp (subf (mulf (broadcast S128x1 (Scalar.ofBits .f32 0x41700000#32)) (subf t δ)) m))))))

/-- The exponentials whose row sums the body takes: `exp (15 · x − m)`, `m` a column laid along the rows. -/
def expShift (x0 : FVec Ideal S128x10000 .f32) (m : FVec Ideal S128x1 .f32) : FVec Ideal S128x10000 .f32 :=
  exp (subf (mulf (broadcast S128x10000 (Scalar.ofBits .f32 0x41700000#32)) x0)
    (broadcastTo S128x10000 m Gen.broadcasts_S128x1_S128x10000))

/-- The body's stored vector is the entrywise part of the two lane reductions and the target column. -/
theorem pay_eq (x0 : Vec Ideal S128x10000 .f32) (x1 : Vec Ideal S128x1 .f32) :
    k0_pay1 (F := Ideal) x0 x1
      = shapeCast S128 (colPost (shapeCast S128x1 x1 Gen.shapeCasts_S128x1_S128x1)
          (shapeCast S128x1 (multiReduction .maximumf [1] S128 x0 0xFF800000#32 Gen.reduces_S128x10000_S128 (.inl rfl) rfl) Gen.shapeCasts_S128_S128x1)
          (shapeCast S128x1 (multiReduction .add [1] S128
            (expShift x0 (mulf (broadcast S128x1 (Scalar.ofBits .f32 0x41700000#32))
              (shapeCast S128x1 (multiReduction .maximumf [1] S128 x0 0xFF800000#32 Gen.reduces_S128x10000_S128 (.inl rfl) rfl) Gen.shapeCasts_S128_S128x1)))
            0x00000000#32 Gen.reduces_S128x10000_S128 (.inl rfl) rfl) Gen.shapeCasts_S128_S128x1))
        Gen.shapeCasts_S128x1_S128 := rfl

/-- The entrywise part at an entry, as extended-real arithmetic. -/
theorem colPost_apply (t mx sm : FVec Ideal S128x1 .f32) (i : S128x1.Idx) :
    colPost t mx sm i
      = Ideal.ofBits .f32 0x00000000#32
        - (Ideal.ofBits .f32 0x41700000#32 * (t i - Ideal.ofBits .f32 0x3E19999A#32 * Ideal.exp (Ideal.ofBits .f32 0x3F800000#32 - t i))
          - (Ideal.ofBits .f32 0x41700000#32 * mx i
            + Ideal.log ((sm i - Ideal.exp (Ideal.ofBits .f32 0x41700000#32 * t i - Ideal.ofBits .f32 0x41700000#32 * mx i))
              + Ideal.exp (Ideal.ofBits .f32 0x41700000#32 * (t i - Ideal.ofBits .f32 0x3E19999A#32 * Ideal.exp (Ideal.ofBits .f32 0x3F800000#32 - t i))
                  - Ideal.ofBits .f32 0x41700000#32 * mx i)))) := rfl

/-- A column scaled by a splat constant, at an entry. -/
theorem scaled_apply (w : BitVec 32) (v : FVec Ideal S128x1 .f32) (i : S128x1.Idx) :
    mulf (broadcast S128x1 (Scalar.ofBits (F := Ideal) .f32 w)) v i = Ideal.ofBits .f32 w * v i := rfl

theorem expShift_apply (x0 : FVec Ideal S128x10000 .f32) (m : FVec Ideal S128x1 .f32) (p : Fin 128) (j : Fin 10000) :
    expShift x0 m (ix2 p j) = Ideal.exp (Ideal.ofBits .f32 0x41700000#32 * x0 (ix2 p j) - m (ix2 p (0 : Fin 1))) := by
  show Ideal.exp (Ideal.ofBits .f32 0x41700000#32 * x0 (ix2 p j) - broadcastTo S128x10000 m Gen.broadcasts_S128x1_S128x10000 (ix2 p j)) = _
  rw [broadcastTo_a1_ab_apply]

/-- Entry `p` of the stored vector is the row value of row `p` of the block and entry `p` of the target column. -/
theorem pay_apply (x0 : Vec Ideal S128x10000 .f32) (x1 : Vec Ideal S128x1 .f32) (p : Fin 128) :
    k0_pay1 (F := Ideal) x0 x1 (ix1 p)
      = Cert.RowMath.kernelRow (fun j : Fin 10000 => x0 (ix2 p j)) (x1 (ix2 p (0 : Fin 1))) := by
  rw [pay_eq]
  refine (shapeCast_a1_a_apply _ Gen.shapeCasts_S128x1_S128 p).trans ?_
  rw [colPost_apply, shapeCast_self, shapeCast_a_a1_apply, shapeCast_a_a1_apply, rowMax_apply, rowSum_apply]
  have hs : ∀ j : Fin 10000, expShift x0 (mulf (broadcast S128x1 (Scalar.ofBits .f32 0x41700000#32))
      (shapeCast S128x1 (multiReduction .maximumf [1] S128 x0 0xFF800000#32 Gen.reduces_S128x10000_S128 (.inl rfl) rfl) Gen.shapeCasts_S128_S128x1)) (ix2 p j)
      = Ideal.exp (Ideal.ofBits .f32 0x41700000#32 * x0 (ix2 p j)
          - Ideal.ofBits .f32 0x41700000#32 * Finset.univ.fold max (Ideal.ofBits .f32 0xFF800000#32) (fun j : Fin 10000 => x0 (ix2 p j))) := fun j => by
    rw [expShift_apply, scaled_apply, shapeCast_a_a1_apply, rowMax_apply]
  rw [Finset.sum_congr rfl (fun j _ => hs j)]
  rfl

end Cert.KernelIdeal.KRow

end
-- ==== Proof.KernelValue.lean ====
/-
  What the kernel program returns, as one expression of its two inputs.

  The launch has 64 points; point `t` stages rows `128 t … 128 t + 127` of the similarities and of the column of
  gathered target entries, and writes back entries `128 t … 128 t + 127` of the per-sample losses. Entry `r` of that
  [8192] array is therefore the row value (`RowMath.kernelRow`) of row `r` of the similarities and its entry at the
  sample's target column; the 64 blocks tile the array. The lines after the launch sum the array from zero and divide
  by 8192.
-/
import proofs.«427576_j74363063763042_3_alg».proof.Proof.Gen.KernelIdeal.Frame
import proofs.«427576_j74363063763042_3_alg».proof.Proof.KernelRow
import proofs.«427576_j74363063763042_3_alg».proof.Proof.Target
import Idealize.ShloMosaic.Lib.StableHlo.Run
import Idealize.ShloMosaic.Lib.Pipeline.Value
import Idealize.ShloMosaic.PureOps.Ideal.Laws

set_option maxRecDepth 16384

noncomputable section

namespace Cert.KernelIdeal.KValue

open Cert.KernelIdeal Cert.KernelIdeal.Gen Idealize.ShloMosaic Idealize.ShloMosaic.TcCoe Idealize.ShloMosaic.ValueIdx
open Idealize.SL.Sem Idealize.ShloMosaic.StableHlo
open Idealize.ShloMosaic.Pipeline (Dat Cfg Window)

variable (m : (ℓ : Loc nD τ sig) → Buf (Elt Ideal) ℓ) (ρ : Dev nD → PrngReg)

/-- The similarities and the labels, as launched. -/
abbrev sims (c : Dev nD) : FVec Ideal S8192x10000 .f32 := m ((c : Thread nD τ).loc main_arg0)
abbrev labs (c : Dev nD) : IVec S8192 32 := m ((c : Thread nD τ).loc main_arg1)

/-- Sample `p`'s loss as the kernel computes it. -/
def rowVal (c : Dev nD) (h : Cert.Target.InRange (labs m c)) (p : Fin 8192) : EReal :=
  Cert.RowMath.kernelRow (fun q : Fin 10000 => sims m c (ix2 p q)) (sims m c (ix2 p (Cert.Target.col h p)))

/-- The array of the samples' losses. -/
def lossArr (c : Dev nD) (h : Cert.Target.InRange (labs m c)) : FVec Ideal S8192 .f32 := fun i => rowVal m c h (i 0)

/-! ## The column of target entries, as the launch finds it -/

theorem cosT_eq (c : Dev nD) (h : Cert.Target.InRange (labs m c)) (p : Fin 8192) :
    (V m c main_v15 : S8192x1.Idx → EReal) (ix2 p (0 : Fin 1)) = sims m c (ix2 p (Cert.Target.col h p)) := by
  have e : (V m c main_v15 : S8192x1.Idx → EReal)
      = shapeCast S8192x1 (Host.gather gather_S8192x10000_S8192x2_S8192_n_01_n_n_01_1_11 (sims m c)
          (Cert.LibPairIndex.pairTable 8192#32 10000#32 Gen.bcast_S_S8192 Gen.bcast_S8192_S8192x1_0
            Gen.concatenates_S8192x1_S8192x1_S8192x2_d1 (labs m c)))
          Gen.shapeCasts_S8192_S8192x1 := by
    show StableHlo.after hostOps0 (fun b => m (c, b)) (Proc.devRef .tc main_v15) = _
    after_results
    rfl
  rw [e, Cert.ColumnLayout.shapeCast_a_a1_apply]
  exact Cert.Target.gather_table h _ _ _ _ rfl rfl rfl rfl _ p

/-! ## The staged blocks -/

theorem hz1 : (![0] : Fin 1 → Nat) = fun _ => 0 := funext fun a => by fin_cases a; rfl
theorem hz2 : (![0, 0] : Fin 2 → Nat) = fun _ => 0 := funext fun a => by fin_cases a <;> rfl

/-- The printed index maps over the grid: point `t` names block `t` of the rows, block 0 of the columns. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 ∧ win0_2.index t (0 : Fin 1) = t.val :=
  (by decide +kernel : ∀ t : Fin grid0.N, _)

theorem N64 : cfg0.N = 64 := N_0

theorem row_lt (t : Fin cfg0.N) (p : Fin 128) : t.val * 128 + p.val < 8192 := by
  have h1 := t.isLt; have h2 := p.isLt; have h3 : cfg0.N = 64 := N64; omega

/-- The two input blocks at a point, at their literal types. -/
abbrev blk0 (c : Dev nD) (t : Fin cfg0.N) : Vec Ideal S128x10000 .f32 := iblk m c 0 t
abbrev blk1 (c : Dev nD) (t : Fin cfg0.N) : Vec Ideal S128x1 .f32 := iblk m c 1 t

/-- Row `p` of point `t`'s block of similarities is row `128 t + p` of the array. -/
theorem blk0_apply (c : Dev nD) (t : Fin cfg0.N) (p : Fin 128) (q : Fin 10000) :
    blk0 m c t (ix2 p q) = sims m c (ix2 ⟨t.val * 128 + p.val, row_lt t p⟩ q) := by
  obtain ⟨e0, e1, -, -, -⟩ := idx_facts t
  show V m c main_arg0 (((cfg0.win 0).blk t).view.emb (ix2 p q)) = _
  rw [V_main_arg0]
  refine congrArg (sims m c) (funext fun a => Fin.ext ?_)
  match a with
  | ⟨0, _⟩ => show win0_0.index t (0 : Fin 2) * 128 + 1 * p.val = t.val * 128 + p.val; rw [e0]; omega
  | ⟨1, _⟩ => show win0_0.index t (1 : Fin 2) * 10000 + 1 * q.val = q.val; rw [e1]; omega

/-- Entry `p` of point `t`'s block of target entries is entry `128 t + p` of the column. -/
theorem blk1_apply (c : Dev nD) (t : Fin cfg0.N) (p : Fin 128) :
    blk1 m c t (ix2 p (0 : Fin 1)) = (V m c main_v15 : S8192x1.Idx → EReal) (ix2 ⟨t.val * 128 + p.val, row_lt t p⟩ (0 : Fin 1)) := by
  obtain ⟨-, -, e0, e1, -⟩ := idx_facts t
  show V m c main_v15 (((cfg0.win 1).blk t).view.emb (ix2 p (0 : Fin 1))) = _
  refine congrArg (V m c main_v15) (funext fun a => Fin.ext ?_)
  match a with
  | ⟨0, _⟩ => show win0_1.index t (0 : Fin 2) * 128 + 1 * p.val = t.val * 128 + p.val; rw [e0]; omega
  | ⟨1, _⟩ => show win0_1.index t (1 : Fin 2) * 1 + 1 * 0 = 0; rw [e1]

/-! ## What each point writes back, and the array after the launch -/

/-- WHAT POINT `t` WRITES BACK is block `t` of the array of losses. -/
theorem flushed_eq (c : Dev nD) (h : Cert.Target.InRange (labs m c)) (t : Fin cfg0.N) :
    (dats m 0 c).flushed 2 t = ((cfg0.win 2).blk t).view.read (Elt Ideal) (lossArr m c h) := by
  show (cfg0.win 2).cut (grid0.coords t) ((dats m 0 c).after 2 t) = _
  rw [after0_2]
  unfold out0_2
  rw [View.canon_unit_zero hz1]
  simp only [View.ld_unit_zero (S := S128x10000) hz2, View.ld_unit_zero (S := S128x1) hz2]
  funext j
  obtain ⟨p, rfl⟩ : ∃ p : Fin 128, j = ix1 p := ⟨j 0, eq_ix1 j⟩
  obtain ⟨-, -, -, -, e2⟩ := idx_facts t
  show k0_pay1 (F := Ideal) (blk0 m c t) (blk1 m c t) (ix1 p) = lossArr m c h (((cfg0.win 2).blk t).view.emb (ix1 p))
  rw [Cert.KernelIdeal.KRow.pay_apply, blk1_apply, cosT_eq m c h]
  have hrow : (((cfg0.win 2).blk t).view.emb (ix1 p) : S8192.Idx) = ix1 ⟨t.val * 128 + p.val, row_lt t p⟩ := by
    funext a; apply Fin.ext
    match a with
    | ⟨0, _⟩ => show win0_2.index t (0 : Fin 1) * 128 + 1 * p.val = t.val * 128 + p.val; rw [e2]; omega
  rw [hrow]
  show _ = rowVal m c h ⟨t.val * 128 + p.val, row_lt t p⟩
  unfold rowVal
  congr 1
  funext q
  exact blk0_apply m c t p q

/-- An entry of the array is in point `t`'s block iff it is one of the 128 entries from `128 t` on. -/
theorem mem_blk (t : Fin cfg0.N) (i : S8192.Idx) :
    i ∈ ((cfg0.win 2).blk t).view.set ↔ ∀ a : Fin 1, win0_2.index t a * S128.size a ≤ (i a).val ∧ (i a).val < win0_2.index t a * S128.size a + S128.size a := by
  show i ∈ ((View.whole main_v16).slice (win0_2.rect t)).set ↔ _
  rw [View.set_slice_whole, Rect.mem_set_unit]
  exact Iff.rfl

/-- THE ARRAY after the launch: every sample's loss (the 64 blocks of 128 tile the 8192 entries). -/
theorem final (c : Dev nD) (h : Cert.Target.InRange (labs m c)) : (dats m 0 c).arrAt 2 cfg0.N = lossArr m c h :=
  (dats m 0 c).arrAt_eq_of_cover 2 (lossArr m c h) (fun t _ => flushed_eq m c h t) fun i => by
    have hi : (i 0).val < 8192 := (i 0).isLt
    have ht : (i 0).val / 128 < cfg0.N := by rw [N64]; omega
    refine ⟨⟨(i 0).val / 128, ht⟩, flush0_2 _, ?_⟩
    rw [mem_blk]
    intro a
    obtain ⟨-, -, -, -, e2⟩ := idx_facts ⟨(i 0).val / 128, ht⟩
    match a with
    | ⟨0, _⟩ =>
      show win0_2.index ⟨(i 0).val / 128, ht⟩ (0 : Fin 1) * 128 ≤ (i 0).val ∧ (i 0).val < win0_2.index ⟨(i 0).val / 128, ht⟩ (0 : Fin 1) * 128 + 128
      rw [e2]
      show (i 0).val / 128 * 128 ≤ (i 0).val ∧ (i 0).val < (i 0).val / 128 * 128 + 128
      omega

/-! ## The lines after the launch, and the run -/

/-- The mean the program returns: the losses summed from zero, divided by 8192. -/
def result (c : Dev nD) (h : Cert.Target.InRange (labs m c)) : S_.Idx → EReal := fun _ =>
  Ideal.div (Ideal.ofBits .f32 0x00000000#32 + ∑ i : S8192.Idx, lossArr m c h i) (Ideal.ofBits .f32 0x46000000#32)

instance : Subsingleton S_.Idx := ⟨fun a b => funext fun d => d.elim0⟩

theorem tail_eq (c : Dev nD) (h : Cert.Target.InRange (labs m c)) :
    Pipeline.afterTail₀ cfgs (dats m) 0 (V0 m) [hostOps1] c main_v18 = result m c h := by
  unfold Pipeline.afterTail₀
  show StableHlo.after hostOps1 _ (Proc.devRef .tc main_v18) = _
  after_results
  rw [(Pipeline.withArrays_arr spec0 launch0.win.arr_inj c _ _ 2).trans (final m c h)]
  funext i
  show Ideal.div (Ideal.hostReduceAdd Gen.reducesTo_S8192_S_d0 (lossArr m c h) (Ideal.ofBits .f32 0x00000000#32) i) (Ideal.ofBits .f32 0x46000000#32) = _
  rw [Ideal.hostReduceAdd_total Gen.reducesTo_S8192_S_d0 (fun b => b.elim0)]
  rfl

/-- The run: the result at `result`, the two inputs unchanged. -/
theorem run (h : ∀ c : Dev nD, Cert.Target.InRange (labs m c)) :
    θ_run defs (onTc (τ := τ) (main (F := Ideal))) ⟨m, fun _ => 0, ρ⟩ fun r => ∀ c : Dev nD,
      r.2.mem ((c.tc : Thread nD τ).loc main_v18) = result m c (h c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ hr c =>
    ⟨((hr c).2 main_v18 (Pipeline.mem_restRefs_of main_v18 (by decide) (by decide))).trans (tail_eq m c (h c)),
      ((hr c).1 0).trans (((dats m 0 c).arrAt_in 0 rfl _).trans ((A_eq m c 0).trans (V_main_arg0 m c))),
      ((hr c).2 main_arg1 (Pipeline.mem_restRefs_of main_arg1 (by decide) (by decide))).trans (W_main_arg1 m (dats m) c)⟩)
    (run_main m ρ)

end Cert.KernelIdeal.KValue

end
-- ==== Proof.Agree.lean ====
/-
  The two means agree.

  For similarities that are all real numbers and labels that are column numbers, sample by sample the kernel's row
  value and the reference's are opposite reals (`RowMath.row_eq`); so the kernel's mean of its values is minus the
  reference's mean of its values (`RowMath.mean_eq`), which is what the reference returns after its final negation.
-/
import proofs.«427576_j74363063763042_3_alg».proof.Proof.RowMath
import proofs.«427576_j74363063763042_3_alg».proof.Proof.Target

noncomputable section

namespace Cert.Agree

open Idealize.ShloMosaic Idealize.ShloMosaic.ValueIdx Cert.RowMath Cert.Target

instance : Nonempty (Fin 10000) := ⟨⟨0, by norm_num⟩⟩

theorem means_agree (x : FVec Ideal ⟨2, ![8192, 10000]⟩ .f32) {lab : IVec ⟨1, ![8192]⟩ 32} (h : InRange lab)
    (hx : ∀ i, ∃ r : ℝ, x i = ((r : ℝ) : EReal)) :
    Ideal.div (Ideal.ofBits .f32 0x00000000#32
        + ∑ i : (⟨1, ![8192]⟩ : Shape).Idx, kernelRow (fun q : Fin 10000 => x (ix2 (i 0) q)) (x (ix2 (i 0) (col h (i 0)))))
      (Ideal.ofBits .f32 0x46000000#32)
    = -(Ideal.div (Ideal.ofBits .f32 0x00000000#32
        + ∑ i : (⟨1, ![8192]⟩ : Shape).Idx, refRow (fun q : Fin 10000 => x (ix2 (i 0) q)) (col h (i 0)))
      (Ideal.ofBits .f32 0x46000000#32)) := by
  choose a ha using hx
  have hrow : ∀ i : (⟨1, ![8192]⟩ : Shape).Idx, ∃ ρ : ℝ,
      kernelRow (fun q : Fin 10000 => x (ix2 (i 0) q)) (x (ix2 (i 0) (col h (i 0)))) = ((ρ : ℝ) : EReal)
      ∧ refRow (fun q : Fin 10000 => x (ix2 (i 0) q)) (col h (i 0)) = ((-ρ : ℝ) : EReal) := fun i => by
    have e1 : (fun q : Fin 10000 => x (ix2 (i 0) q)) = fun q => ((a (ix2 (i 0) q) : ℝ) : EReal) := funext fun q => ha _
    rw [e1, ha]
    exact row_eq (fun q : Fin 10000 => a (ix2 (i 0) q)) (col h (i 0))
  choose ρ hρ using hrow
  exact mean_eq ρ _ _ (fun i => (hρ i).1) (fun i => (hρ i).2)

end Cert.Agree

end
-- ==== Proof.lean ====
/-
  The margin softmax loss: a kernel that folds the margin into the log-sum-exp, against the reference's scatter and
  log-softmax.

  Per sample with similarities `x`, target class `k`, `t = x k`, margin `δ = 0.15 · exp (1 − t)` (the reference's
  `(0.3 · exp (1 − t)) / 2`: the two binary constants are one real, the second word is twice the first): the
  reference lowers the target's similarity by `δ`, scales by 15 and reads the log-softmax at the target; the kernel keeps
  the row as it is, takes `m = 15 · max x` and `s = ∑ exp (15 x − m)`, and swaps the target's term of `s` for its adjusted
  one. Both are `15 (t − δ) − m − log A` up to sign, `A` the swapped sum: `∑ exp (z − M) = A · exp (m − M)` moves the
  shift out of the logarithm. This needs real numbers throughout, so the precondition's finiteness is used; and it
  needs each label to name a column, for outside that range the reference's gather clamps while its scatter drops the
  update, and the two programs differ. The means over the 8192 samples are then opposite, and the reference negates.
-/
import proofs.«427576_j74363063763042_3_alg».proof.Defs
import proofs.«427576_j74363063763042_3_alg».proof.Proof.Gen.Kernel
import proofs.«427576_j74363063763042_3_alg».proof.Proof.Gen.Kernel.Skeleton
import proofs.«427576_j74363063763042_3_alg».proof.Proof.Gen.Kernel.Launch
import proofs.«427576_j74363063763042_3_alg».proof.Proof.Gen.Kernel.Points
import proofs.«427576_j74363063763042_3_alg».proof.Proof.Gen.Kernel.Frame
import proofs.«427576_j74363063763042_3_alg».proof.Proof.Gen.KernelIdeal
import proofs.«427576_j74363063763042_3_alg».proof.Proof.Gen.KernelIdeal.Skeleton
import proofs.«427576_j74363063763042_3_alg».proof.Proof.Gen.KernelIdeal.Launch
import proofs.«427576_j74363063763042_3_alg».proof.Proof.Gen.KernelIdeal.Points
import proofs.«427576_j74363063763042_3_alg».proof.Proof.Gen.KernelIdeal.Frame
import proofs.«427576_j74363063763042_3_alg».proof.Proof.Gen.ReferenceIdeal
import proofs.«427576_j74363063763042_3_alg».proof.Proof.Gen.Pre_finite_inputs
import proofs.«427576_j74363063763042_3_alg».proof.Proof.RefStages
import proofs.«427576_j74363063763042_3_alg».proof.Proof.PreFacts
import proofs.«427576_j74363063763042_3_alg».proof.Proof.KernelValue
import proofs.«427576_j74363063763042_3_alg».proof.Proof.RefValue
import proofs.«427576_j74363063763042_3_alg».proof.Proof.Agree
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no launch: its frame is its run with the result dropped. -/
theorem frame_ri : Cert.frame_ReferenceIdeal := fun m ρ _ =>
  (θ_run Cert.ReferenceIdeal.defs _ _).mono (fun _ h c => (h c).2) (Cert.ReferenceIdeal.RStages.run m ρ)

/-- The two programs return the same mean: the kernel's run ends at the mean of its row values, the reference's at
    minus the mean of its own, and sample by sample those are opposite reals. -/
theorem algebraic : Cert.algebraic_KernelIdeal_ReferenceIdeal := by
  intro m ρ m' ρ' hpre hagree
  have hP := fun c => Cert.PreFacts.of_pre _ _ (hpre c)
  have hK : ∀ c, Cert.Target.InRange (Cert.KernelIdeal.KValue.labs m c) := fun c => (hP c).2
  have hR : ∀ c, Cert.Target.InRange (Cert.ReferenceIdeal.RValue.labs m' c) := fun c => by
    have e : Cert.ReferenceIdeal.RValue.labs m' c = Cert.KernelIdeal.KValue.labs m c := (hagree c).2
    rw [e]; exact hK c
  refine ⟨fun c => Cert.KernelIdeal.KValue.result m c (hK c), Cert.KernelIdeal.KValue.run m ρ hK, ?_⟩
  refine (θ_run Cert.ReferenceIdeal.defs _ _).mono (fun _ h c => ⟨(h c).1.trans ?_, (h c).2⟩)
    (Cert.ReferenceIdeal.RStages.run m' ρ')
  refine ((Cert.ReferenceIdeal.RValue.res_eq m' c).symm.trans (Cert.ReferenceIdeal.RValue.res_value m' (hR c))).trans ?_
  have ex : Cert.ReferenceIdeal.RValue.sims m' c = Cert.KernelIdeal.KValue.sims m c := (hagree c).1
  have el : Cert.ReferenceIdeal.RValue.labs m' c = Cert.KernelIdeal.KValue.labs m c := (hagree c).2
  funext i
  show -(Ideal.div (Ideal.ofBits .f32 0x00000000#32 + ∑ i, Cert.ReferenceIdeal.RValue.valArr m' c (hR c) i) (Ideal.ofBits .f32 0x46000000#32))
    = Ideal.div (Ideal.ofBits .f32 0x00000000#32 + ∑ i, Cert.KernelIdeal.KValue.lossArr m c (hK c) i) (Ideal.ofBits .f32 0x46000000#32)
  have hv : ∀ i, Cert.ReferenceIdeal.RValue.valArr m' c (hR c) i
      = Cert.RowMath.refRow (fun q : Fin 10000 => Cert.KernelIdeal.KValue.sims m c (ValueIdx.ix2 (i 0) q)) (Cert.Target.col (hK c) (i 0)) := fun i => by
    unfold Cert.ReferenceIdeal.RValue.valArr
    have ec : ∀ p, Cert.Target.col (hR c) p = Cert.Target.col (hK c) p := fun p => by
      apply Fin.ext; show ((Cert.ReferenceIdeal.RValue.labs m' c) _).toInt.toNat = ((Cert.KernelIdeal.KValue.labs m c) _).toInt.toNat; rw [el]
    rw [ex]
    exact congrArg (Cert.RowMath.refRow _) (ec (i 0))
  rw [Finset.sum_congr rfl (fun i _ => hv i)]
  exact (Cert.Agree.means_agree (Cert.KernelIdeal.KValue.sims m c) (hK c) (hP c).1).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
